-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x512 : Shape := ⟨3, ![2, 256, 512]⟩
abbrev S2x512x512 : Shape := ⟨3, ![2, 512, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S512x256 .f32) (main_arg15 : FVec F S256 .f32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S512x256 .f32 := Host.absf main_arg14
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg12
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2x256x512 .f32) (main_arg1 : FVec F S2x512x512 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2x256x512 : Shape := ⟨3, ![2, 256, 512]⟩
abbrev S2x512x512 : Shape := ⟨3, ![2, 512, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x256x256 : Shape := ⟨3, ![2, 256, 256]⟩
abbrev S2x512x256 : Shape := ⟨3, ![2, 512, 256]⟩
abbrev S1x256x512 : Shape := ⟨3, ![1, 256, 512]⟩
abbrev S1x512x512 : Shape := ⟨3, ![1, 512, 512]⟩
abbrev S1x256x256 : Shape := ⟨3, ![1, 256, 256]⟩
abbrev S1x512x256 : Shape := ⟨3, ![1, 512, 256]⟩
abbrev S256x512 : Shape := ⟨2, ![256, 512]⟩
abbrev S512x512 : Shape := ⟨2, ![512, 512]⟩
abbrev S1x256 : Shape := ⟨2, ![1, 256]⟩
abbrev S1x32x256 : Shape := ⟨3, ![1, 32, 256]⟩
abbrev S1x128x256 : Shape := ⟨3, ![1, 128, 256]⟩
abbrev S1x32x128 : Shape := ⟨3, ![1, 32, 128]⟩
abbrev S32x256 : Shape := ⟨2, ![32, 256]⟩
abbrev S128x256 : Shape := ⟨2, ![128, 256]⟩
abbrev S32x1x256 : Shape := ⟨3, ![32, 1, 256]⟩
abbrev S32x128x256 : Shape := ⟨3, ![32, 128, 256]⟩
abbrev S1x1x256 : Shape := ⟨3, ![1, 1, 256]⟩
abbrev S4096x256 : Shape := ⟨2, ![4096, 256]⟩
abbrev S32x128 : Shape := ⟨2, ![32, 128]⟩

abbrev nBuf : Space → Nat
  | .hbm => 28
  | .vmem => 42
  | .smem => 0
  | _ => 0

abbrev bufTy : (tb : Table) → Fin (tcTables nBuf tb) → BufTy
  | .hbm, ⟨0, _⟩ => ⟨S2x256x512, .f32⟩
  | .hbm, ⟨1, _⟩ => ⟨S2x512x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S512x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S2x256x256, .f32⟩
  | .hbm, ⟨23, _⟩ => ⟨S2x512x256, .f32⟩
  | .hbm, ⟨24, _⟩ => ⟨S2x256x256, .f32⟩
  | .hbm, ⟨25, _⟩ => ⟨S2x512x256, .f32⟩
  | .hbm, ⟨26, _⟩ => ⟨S2x256x512, .f32⟩
  | .hbm, ⟨27, _⟩ => ⟨S2x256x512, .f32⟩
  | .local _ .vmem, ⟨0, _⟩ => ⟨S1x256x512, .f32⟩
  | .local _ .vmem, ⟨1, _⟩ => ⟨S1x256x512, .f32⟩
  | .local _ .vmem, ⟨2, _⟩ => ⟨S1x512x512, .f32⟩
  | .local _ .vmem, ⟨3, _⟩ => ⟨S1x512x512, .f32⟩
  | .local _ .vmem, ⟨4, _⟩ => ⟨S512x256, .f32⟩
  | .local _ .vmem, ⟨5, _⟩ => ⟨S256, .f32⟩
  | .local _ .vmem, ⟨6, _⟩ => ⟨S512x256, .f32⟩
  | .local _ .vmem, ⟨7, _⟩ => ⟨S256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x256x256, .f32⟩
  | .local _ .vmem, ⟨13, _⟩ => ⟨S1x256x256, .f32⟩
  | .local _ .vmem, ⟨14, _⟩ => ⟨S1x512x256, .f32⟩
  | .local _ .vmem, ⟨15, _⟩ => ⟨S1x512x256, .f32⟩
  | .local _ .vmem, ⟨16, _⟩ => ⟨S1x256x256, .f32⟩
  | .local _ .vmem, ⟨17, _⟩ => ⟨S1x256x256, .f32⟩
  | .local _ .vmem, ⟨18, _⟩ => ⟨S1x512x256, .f32⟩
  | .local _ .vmem, ⟨19, _⟩ => ⟨S1x512x256, .f32⟩
  | .local _ .vmem, ⟨20, _⟩ => ⟨S1x32x256, .f32⟩
  | .local _ .vmem, ⟨21, _⟩ => ⟨S1x32x256, .f32⟩
  | .local _ .vmem, ⟨22, _⟩ => ⟨S1x128x256, .f32⟩
  | .local _ .vmem, ⟨23, _⟩ => ⟨S1x128x256, .f32⟩
  | .local _ .vmem, ⟨24, _⟩ => ⟨S1x32x256, .f32⟩
  | .local _ .vmem, ⟨25, _⟩ => ⟨S1x32x256, .f32⟩
  | .local _ .vmem, ⟨26, _⟩ => ⟨S1x128x256, .f32⟩
  | .local _ .vmem, ⟨27, _⟩ => ⟨S1x128x256, .f32⟩
  | .local _ .vmem, ⟨28, _⟩ => ⟨S256, .f32⟩
  | .local _ .vmem, ⟨29, _⟩ => ⟨S256x256, .f32⟩
  | .local _ .vmem, ⟨30, _⟩ => ⟨S256, .f32⟩
  | .local _ .vmem, ⟨31, _⟩ => ⟨S256x256, .f32⟩
  | .local _ .vmem, ⟨32, _⟩ => ⟨S256, .f32⟩
  | .local _ .vmem, ⟨33, _⟩ => ⟨S256x1, .f32⟩
  | .local _ .vmem, ⟨34, _⟩ => ⟨S256, .f32⟩
  | .local _ .vmem, ⟨35, _⟩ => ⟨S256x1, .f32⟩
  | .local _ .vmem, ⟨36, _⟩ => ⟨S1, .f32⟩
  | .local _ .vmem, ⟨37, _⟩ => ⟨S1, .f32⟩
  | .local _ .vmem, ⟨38, _⟩ => ⟨S1x32x128, .f32⟩
  | .local _ .vmem, ⟨39, _⟩ => ⟨S1x32x128, .f32⟩
  | .local _ .vmem, ⟨40, _⟩ => ⟨S1x32x128, .f32⟩
  | .local _ .vmem, ⟨41, _⟩ => ⟨S1x32x128, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_v4_3 : Ref sig .tc := ⟨.hbm, 25, rfl⟩
abbrev main_v5_0 : Ref sig .tc := ⟨.hbm, 26, rfl⟩
abbrev main_v5_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg15_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem13_0 : DmaSem sig := 37
abbrev cc1_sem14_0 : DmaSem sig := 38
abbrev cc1_sem14_1 : DmaSem sig := 39
abbrev cc1_sem15_0 : DmaSem sig := 40
abbrev cc1_sem15_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_14 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_15 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false, false]

abbrev stage1_11 : Fin 1 → Memref sig .tc .vmem S256x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false, false]

abbrev stage1_12 : Fin 1 → Memref sig .tc .vmem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false, false]

abbrev stage1_13 : Fin 1 → Memref sig .tc .vmem S1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false, false]

abbrev stage1_14 : Fin 2 → Memref sig .tc .vmem S1x32x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true, true]

abbrev stage1_15 : Fin 2 → Memref sig .tc .vmem S1x32x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true, true]

class Facts₀ : Prop where
  slices_S512x256_S256x256_0_0 : S512x256.Slices ![0, 0] S256x256
  slices_S512x256_S256x256_256_0 : S512x256.Slices ![256, 0] S256x256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1_S1_0 : ∀ a, (![0] : Fin 1 → Nat) a + S1.size a ≤ S1.size a
  h_S1 : 0 < S1.numel
  inpos_S1_p0 : ∀ a, (![0] : Fin 1 → Nat) a < S1.size a
  inb_S256x1_S256x1_0_0 : ∀ a, (![0, 0] : Fin 2 → Nat) a + S256x1.size a ≤ S256x1.size a
  h_S256x1 : 0 < S256x1.numel
  shapeCasts_S256x1_S256 : S256x1.ShapeCasts S256
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S256_S1x1x256 : S256.ShapeCasts S1x1x256
  broadcasts_S1x1x256_S32x128x256 : S1x1x256.Broadcasts S32x128x256
  shapeCasts_S32x128x256_S4096x256 : S32x128x256.ShapeCasts S4096x256
  broadcasts_S1x256_S4096x256 : S1x256.Broadcasts S4096x256
  shapeCasts_S4096x256_S32x128x256 : S4096x256.ShapeCasts S32x128x256
  reduces_S32x128x256_S32x128 : S32x128x256.Reduces [2] S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S256x512_S512x256_S256x256_1_0_0_1_n_n_wf : DotDims.WF S256x512 S512x256 S256x256 [1] [0] [0] [1] [] []
  dot_S512x512_S512x256_S512x256_1_0_0_1_n_n_wf : DotDims.WF S512x512 S512x256 S512x256 [1] [0] [0] [1] [] []
  dot_S256x256_S256x256_S256x256_1_0_0_1_n_n_wf : DotDims.WF S256x256 S256x256 S256x256 [1] [0] [0] [1] [] []
  dot_S512x256_S256x256_S512x256_1_0_0_1_n_n_wf : DotDims.WF S512x256 S256x256 S512x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S2x256x512.size a
  hwx0_0 : ∀ i : grid0.Coords, EltTy.bits .f32 = 32 ∨ (Rect.block (s := S2x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x256.size a ≤ S2x256x256.size a
  hwx0_10 : ∀ i : grid0.Coords, EltTy.bits .f32 = 32 ∨ (Rect.block (s := S2x256x256) S1x256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x256.size a ≤ S2x512x256.size a
  hwx0_11 : ∀ i : grid0.Coords, EltTy.bits .f32 = 32 ∨ (Rect.block (s := S2x512x256) S1x512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x256.size a ≤ S2x256x256.size a
  hwx0_12 : ∀ i : grid0.Coords, EltTy.bits .f32 = 32 ∨ (Rect.block (s := S2x256x256) S1x256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x256.size a ≤ S2x512x256.size a
  hwx0_13 : ∀ i : grid0.Coords, EltTy.bits .f32 = 32 ∨ (Rect.block (s := S2x512x256) S1x512x256.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256.size a ≤ S2x256x256.size a
  hwx1_0 : ∀ i : grid1.Coords, EltTy.bits .f32 = 32 ∨ (Rect.block (s := S2x256x256) S1x32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S2x512x256.size a
  hwx1_1 : ∀ i : grid1.Coords, EltTy.bits .f32 = 32 ∨ (Rect.block (s := S2x512x256) S1x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x256.size a ≤ S2x256x256.size a
  hwx1_2 : ∀ i : grid1.Coords, EltTy.bits .f32 = 32 ∨ (Rect.block (s := S2x256x256) S1x32x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x256.size a ≤ S2x512x256.size a
  hwx1_3 : ∀ i : grid1.Coords, EltTy.bits .f32 = 32 ∨ (Rect.block (s := S2x512x256) S1x128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .f32 = 32 ∨ (Rect.block (s := S256x1) S256x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x1.size a ≤ S256x1.size a
  hwx1_11 : ∀ i : grid1.Coords, EltTy.bits .f32 = 32 ∨ (Rect.block (s := S256x1) S256x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1.size a ≤ S1.size a
  hwx1_12 : ∀ i : grid1.Coords, EltTy.bits .f32 = 32 ∨ (Rect.block (s := S1) S1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1.size a ≤ S1.size a
  hwx1_13 : ∀ i : grid1.Coords, EltTy.bits .f32 = 32 ∨ (Rect.block (s := S1) S1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x32x128.size a ≤ S2x256x512.size a
  hwx1_14 : ∀ i : grid1.Coords, EltTy.bits .f32 = 32 ∨ (Rect.block (s := S2x256x512) S1x32x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x32x128.size a ≤ S2x256x512.size a
  hwx1_15 : ∀ i : grid1.Coords, EltTy.bits .f32 = 32 ∨ (Rect.block (s := S2x256x512) S1x32x128.size (cc1_transform_15 i) (hinb1_15 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S1x256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S1x512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_2) S1x256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_3) S1x512x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v4_0) S1x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x32x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_3) S1x128x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S256x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg13) S1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v5_0) S1x32x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v5_1) S1x32x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S2x256x512 : Shape := ⟨3, ![2, 256, 512]⟩
abbrev S2x512x512 : Shape := ⟨3, ![2, 512, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x256x256 : Shape := ⟨3, ![2, 256, 256]⟩
abbrev S1x1x256 : Shape := ⟨3, ![1, 1, 256]⟩
abbrev S_ : Shape := ⟨0, ![]⟩
abbrev S2x512x256 : Shape := ⟨3, ![2, 512, 256]⟩
abbrev S2x256x1x256 : Shape := ⟨4, ![2, 256, 1, 256]⟩
abbrev S2x1x512x256 : Shape := ⟨4, ![2, 1, 512, 256]⟩
abbrev S2x256x512x256 : Shape := ⟨4, ![2, 256, 512, 256]⟩
abbrev S1x1x1x256 : Shape := ⟨4, ![1, 1, 1, 256]⟩
abbrev S2x256x512x1 : Shape := ⟨4, ![2, 256, 512, 1]⟩
abbrev S1x1x1x1 : Shape := ⟨4, ![1, 1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x512x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S512x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S2x256x256, .f32⟩
  | .hbm, ⟨19, _⟩ => ⟨S1x1x256, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x512x256, .f32⟩
  | .hbm, ⟨26, _⟩ => ⟨S1x1x256, .f32⟩
  | .hbm, ⟨27, _⟩ => ⟨S2x512x256, .f32⟩
  | .hbm, ⟨28, _⟩ => ⟨S2x512x256, .f32⟩
  | .hbm, ⟨29, _⟩ => ⟨S_, .f32⟩
  | .hbm, ⟨30, _⟩ => ⟨S2x512x256, .f32⟩
  | .hbm, ⟨31, _⟩ => ⟨S2x512x256, .f32⟩
  | .hbm, ⟨32, _⟩ => ⟨S256x256, .f32⟩
  | .hbm, ⟨33, _⟩ => ⟨S2x256x256, .f32⟩
  | .hbm, ⟨34, _⟩ => ⟨S256x256, .f32⟩
  | .hbm, ⟨35, _⟩ => ⟨S2x512x256, .f32⟩
  | .hbm, ⟨36, _⟩ => ⟨S2x256x1x256, .f32⟩
  | .hbm, ⟨37, _⟩ => ⟨S2x1x512x256, .f32⟩
  | .hbm, ⟨38, _⟩ => ⟨S2x256x512x256, .f32⟩
  | .hbm, ⟨39, _⟩ => ⟨S2x256x512x256, .f32⟩
  | .hbm, ⟨40, _⟩ => ⟨S2x256x512x256, .f32⟩
  | .hbm, ⟨41, _⟩ => ⟨S1x1x1x256, .f32⟩
  | .hbm, ⟨42, _⟩ => ⟨S2x256x512x256, .f32⟩
  | .hbm, ⟨43, _⟩ => ⟨S2x256x512x256, .f32⟩
  | .hbm, ⟨44, _⟩ => ⟨S_, .f32⟩
  | .hbm, ⟨45, _⟩ => ⟨S2x256x512x256, .f32⟩
  | .hbm, ⟨46, _⟩ => ⟨S2x256x512x256, .f32⟩
  | .hbm, ⟨47, _⟩ => ⟨S2x256x512x256, .f32⟩
  | .hbm, ⟨48, _⟩ => ⟨S1x1x1x256, .f32⟩
  | .hbm, ⟨49, _⟩ => ⟨S2x256x512x256, .f32⟩
  | .hbm, ⟨50, _⟩ => ⟨S2x256x512x256, .f32⟩
  | .hbm, ⟨51, _⟩ => ⟨S_, .f32⟩
  | .hbm, ⟨52, _⟩ => ⟨S2x256x512x256, .f32⟩
  | .hbm, ⟨53, _⟩ => ⟨S2x256x512x256, .f32⟩
  | .hbm, ⟨54, _⟩ => ⟨S2x256x512x256, .f32⟩
  | .hbm, ⟨55, _⟩ => ⟨S1x1x1x256, .f32⟩
  | .hbm, ⟨56, _⟩ => ⟨S2x256x512x256, .f32⟩
  | .hbm, ⟨57, _⟩ => ⟨S2x256x512x256, .f32⟩
  | .hbm, ⟨58, _⟩ => ⟨S_, .f32⟩
  | .hbm, ⟨59, _⟩ => ⟨S2x256x512x256, .f32⟩
  | .hbm, ⟨60, _⟩ => ⟨S2x256x512x256, .f32⟩
  | .hbm, ⟨61, _⟩ => ⟨S2x256x512x1, .f32⟩
  | .hbm, ⟨62, _⟩ => ⟨S1x1x1x1, .f32⟩
  | .hbm, ⟨63, _⟩ => ⟨S2x256x512x1, .f32⟩
  | .hbm, ⟨64, _⟩ => ⟨S2x256x512x1, .f32⟩
  | .hbm, ⟨65, _⟩ => ⟨S2x256x512, .f32⟩
  | .hbm, ⟨66, _⟩ => ⟨S256x256, .f32⟩
  | .hbm, ⟨67, _⟩ => ⟨S2x256x256, .f32⟩
  | .hbm, ⟨68, _⟩ => ⟨S256x256, .f32⟩
  | .hbm, ⟨69, _⟩ => ⟨S2x512x256, .f32⟩
  | .hbm, ⟨70, _⟩ => ⟨S2x256x1x256, .f32⟩
  | .hbm, ⟨71, _⟩ => ⟨S2x1x512x256, .f32⟩
  | .hbm, ⟨72, _⟩ => ⟨S2x256x512x256, .f32⟩
  | .hbm, ⟨73, _⟩ => ⟨S2x256x512x256, .f32⟩
  | .hbm, ⟨74, _⟩ => ⟨S2x256x512x256, .f32⟩
  | .hbm, ⟨75, _⟩ => ⟨S1x1x1x256, .f32⟩
  | .hbm, ⟨76, _⟩ => ⟨S2x256x512x256, .f32⟩
  | .hbm, ⟨77, _⟩ => ⟨S2x256x512x256, .f32⟩
  | .hbm, ⟨78, _⟩ => ⟨S_, .f32⟩
  | .hbm, ⟨79, _⟩ => ⟨S2x256x512x256, .f32⟩
  | .hbm, ⟨80, _⟩ => ⟨S2x256x512x256, .f32⟩
  | .hbm, ⟨81, _⟩ => ⟨S2x256x512x1, .f32⟩
  | .hbm, ⟨82, _⟩ => ⟨S1x1x1x1, .f32⟩
  | .hbm, ⟨83, _⟩ => ⟨S2x256x512x1, .f32⟩
  | .hbm, ⟨84, _⟩ => ⟨S2x256x512x1, .f32⟩
  | .hbm, ⟨85, _⟩ => ⟨S2x256x512, .f32⟩
  | .hbm, ⟨86, _⟩ => ⟨S_, .f32⟩
  | .hbm, ⟨87, _⟩ => ⟨S2x256x512, .f32⟩
  | .hbm, ⟨88, _⟩ => ⟨S2x256x512, .f32⟩
  | .hbm, ⟨89, _⟩ => ⟨S2x256x512, .f32⟩
  | .hbm, ⟨90, _⟩ => ⟨S2x256x512, .f32⟩
  | .hbm, ⟨91, _⟩ => ⟨S2x256x512, .i1⟩
  | .hbm, ⟨92, _⟩ => ⟨S2x256x512, .f32⟩
  | .hbm, ⟨93, _⟩ => ⟨S2x256x512, .f32⟩
  | .hbm, ⟨94, _⟩ => ⟨S2x256x512, .f32⟩
  | .hbm, ⟨95, _⟩ => ⟨S2x256x512, .f32⟩
  | .hbm, ⟨96, _⟩ => ⟨S2x256x512, .f32⟩
  | .hbm, ⟨97, _⟩ => ⟨S2x256x512, .f32⟩
  | .hbm, ⟨98, _⟩ => ⟨S2x256x512, .f32⟩
  | .hbm, ⟨99, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call3_cst : Ref sig .tc := ⟨.hbm, 51, rfl⟩
abbrev main_call3_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call4_cst : Ref sig .tc := ⟨.hbm, 58, rfl⟩
abbrev main_call4_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call5_cst : Ref sig .tc := ⟨.hbm, 78, rfl⟩
abbrev main_call5_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call6_cst : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_v6 : Ref sig .tc := ⟨.hbm, 93, rfl⟩
abbrev main_call6_v7 : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_v11 : Ref sig .tc := ⟨.hbm, 98, rfl⟩
abbrev main_v56 : Ref sig .tc := ⟨.hbm, 99, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2x256x256_0_1_2 : S1x1x256.BroadcastsInDim S2x256x256 (![0, 1, 2] : Fin 3 → Fin S2x256x256.rank)
  bcast_S_S2x256x256 : S_.BroadcastsInDim S2x256x256 (![] : Fin 0 → Fin S2x256x256.rank)
  bcast_S1x1x256_S2x512x256_0_1_2 : S1x1x256.BroadcastsInDim S2x512x256 (![0, 1, 2] : Fin 3 → Fin S2x512x256.rank)
  bcast_S_S2x512x256 : S_.BroadcastsInDim S2x512x256 (![] : Fin 0 → Fin S2x512x256.rank)
  slices_S512x256_S256x256_0_0 : S512x256.Slices ![0, 0] S256x256
  slices_S512x256_S256x256_256_0 : S512x256.Slices ![256, 0] S256x256
  bcast_S2x256x256_S2x256x1x256_0_1_3 : S2x256x256.BroadcastsInDim S2x256x1x256 (![0, 1, 3] : Fin 3 → Fin S2x256x1x256.rank)
  bcast_S2x512x256_S2x1x512x256_0_2_3 : S2x512x256.BroadcastsInDim S2x1x512x256 (![0, 2, 3] : Fin 3 → Fin S2x1x512x256.rank)
  bcast_S2x256x1x256_S2x256x512x256_0_1_2_3 : S2x256x1x256.BroadcastsInDim S2x256x512x256 (![0, 1, 2, 3] : Fin 4 → Fin S2x256x512x256.rank)
  bcast_S2x1x512x256_S2x256x512x256_0_1_2_3 : S2x1x512x256.BroadcastsInDim S2x256x512x256 (![0, 1, 2, 3] : Fin 4 → Fin S2x256x512x256.rank)
  bcast_S256_S1x1x1x256_3 : S256.BroadcastsInDim S1x1x1x256 (![3] : Fin 1 → Fin S1x1x1x256.rank)
  bcast_S1x1x1x256_S2x256x512x256_0_1_2_3 : S1x1x1x256.BroadcastsInDim S2x256x512x256 (![0, 1, 2, 3] : Fin 4 → Fin S2x256x512x256.rank)
  bcast_S_S2x256x512x256 : S_.BroadcastsInDim S2x256x512x256 (![] : Fin 0 → Fin S2x256x512x256.rank)
  bcast_S1_S1x1x1x1_3 : S1.BroadcastsInDim S1x1x1x1 (![3] : Fin 1 → Fin S1x1x1x1.rank)
  bcast_S1x1x1x1_S2x256x512x1_0_1_2_3 : S1x1x1x1.BroadcastsInDim S2x256x512x1 (![0, 1, 2, 3] : Fin 4 → Fin S2x256x512x1.rank)
  shapeCasts_S2x256x512x1_S2x256x512 : S2x256x512x1.ShapeCasts S2x256x512
  bcast_S_S2x256x512 : S_.BroadcastsInDim S2x256x512 (![] : Fin 0 → Fin S2x256x512.rank)
  dot_S2x256x512_S512x256_S2x256x256_2_0_01_1_n_n_wf : DotDims.WF S2x256x512 S512x256 S2x256x256 [2] [0] [0, 1] [1] [] []
  dot_S2x512x512_S512x256_S2x512x256_2_0_01_1_n_n_wf : DotDims.WF S2x512x512 S512x256 S2x512x256 [2] [0] [0, 1] [1] [] []
  dot_S2x256x256_S256x256_S2x256x256_2_0_01_1_n_n_wf : DotDims.WF S2x256x256 S256x256 S2x256x256 [2] [0] [0, 1] [1] [] []
  dot_S2x512x256_S256x256_S2x512x256_2_0_01_1_n_n_wf : DotDims.WF S2x512x256 S256x256 S2x512x256 [2] [0] [0, 1] [1] [] []
  dot_S2x256x512x256_S256x256_S2x256x512x256_3_0_012_1_n_n_wf : DotDims.WF S2x256x512x256 S256x256 S2x256x512x256 [3] [0] [0, 1, 2] [1] [] []
  dot_S2x256x512x256_S256x1_S2x256x512x1_3_0_012_1_n_n_wf : DotDims.WF S2x256x512x256 S256x1 S2x256x512x1 [3] [0] [0, 1, 2] [1] [] []

variable [Facts₀]

def dot_S2x256x512_S512x256_S2x256x256_2_0_01_1_n_n : DotDims S2x256x512 S512x256 S2x256x256 where
  lhsContracting := [2]
  rhsContracting := [0]
  lhsNonContracting := [0, 1]
  rhsNonContracting := [1]
  lhsBatch := []
  rhsBatch := []
  wf := dot_S2x256x512_S512x256_S2x256x256_2_0_01_1_n_n_wf
def dot_S2x512x512_S512x256_S2x512x256_2_0_01_1_n_n : DotDims S2x512x512 S512x256 S2x512x256 where
  lhsContracting := [2]
  rhsContracting := [0]
  lhsNonContracting := [0, 1]
  rhsNonContracting := [1]
  lhsBatch := []
  rhsBatch := []
  wf := dot_S2x512x512_S512x256_S2x512x256_2_0_01_1_n_n_wf
def dot_S2x256x256_S256x256_S2x256x256_2_0_01_1_n_n : DotDims S2x256x256 S256x256 S2x256x256 where
  lhsContracting := [2]
  rhsContracting := [0]
  lhsNonContracting := [0, 1]
  rhsNonContracting := [1]
  lhsBatch := []
  rhsBatch := []
  wf := dot_S2x256x256_S256x256_S2x256x256_2_0_01_1_n_n_wf
def dot_S2x512x256_S256x256_S2x512x256_2_0_01_1_n_n : DotDims S2x512x256 S256x256 S2x512x256 where
  lhsContracting := [2]
  rhsContracting := [0]
  lhsNonContracting := [0, 1]
  rhsNonContracting := [1]
  lhsBatch := []
  rhsBatch := []
  wf := dot_S2x512x256_S256x256_S2x512x256_2_0_01_1_n_n_wf
def dot_S2x256x512x256_S256x256_S2x256x512x256_3_0_012_1_n_n : DotDims S2x256x512x256 S256x256 S2x256x512x256 where
  lhsContracting := [3]
  rhsContracting := [0]
  lhsNonContracting := [0, 1, 2]
  rhsNonContracting := [1]
  lhsBatch := []
  rhsBatch := []
  wf := dot_S2x256x512x256_S256x256_S2x256x512x256_3_0_012_1_n_n_wf
def dot_S2x256x512x256_S256x1_S2x256x512x1_3_0_012_1_n_n : DotDims S2x256x512x256 S256x1 S2x256x512x1 where
  lhsContracting := [3]
  rhsContracting := [0]
  lhsNonContracting := [0, 1, 2]
  rhsNonContracting := [1]
  lhsBatch := []
  rhsBatch := []
  wf := dot_S2x256x512x256_S256x1_S2x256x512x1_3_0_012_1_n_n_wf

class Facts : Prop extends Facts₀ where

variable [Facts]
-- ==== Proof.Spec.lean ====
/-
  The kernel's mathematics, stated once over the extended reals, index by index.

  An encoder feature is `relu (x[b,s,:] · We[:,h] + be[h])`; a projection is the features times a 256 × 256
  weight. For a pair (q, k) of one batch the hidden layers are
  `h0[f] = relu (QP[b,q,f] + KP[b,k,f] + b0[f])`, `h1[g] = relu (Σ_f h0[f] · W1[f,g] + b1[g])`,
  `h2[h] = relu (Σ_g h1[g] · W2[g,h] + b2[h])`; the importance logit is `Σ_h h2[h] · Wf[h,0] + bf[0]`; the variance
  is the softplus of `Σ_h relu (QV[b,q,h] + KV[b,k,h] + bv1[h]) · Wv2[h,0] + bv2[0]`, the softplus written the way
  both programs compute it: `max x 0 + log1p (exp (-|x - 0|))`.
-/
import Idealize.ShloMosaic.PureOps.Ideal
import Idealize.ShloMosaic.Lib.ValueIdx

noncomputable section

namespace Cert.Spec

open Idealize.ShloMosaic Idealize.ShloMosaic.ValueIdx

/-- Arrays of extended reals of rank one, two and three, over literal extents. -/
abbrev Arr1 (n : Nat) : Type := (⟨1, ![n]⟩ : Shape).Idx → EReal
abbrev Arr2 (a b : Nat) : Type := (⟨2, ![a, b]⟩ : Shape).Idx → EReal
abbrev Arr3 (a b c : Nat) : Type := (⟨3, ![a, b, c]⟩ : Shape).Idx → EReal

/-- One encoder feature of row `s` of batch `b`: `relu (Σ_e x[b,s,e] · We[e,h] + be[h])`. -/
def feat {B S : Nat} (x : Arr3 B S 512) (We : Arr2 512 256) (be : Arr1 256) (b : Fin B) (s : Fin S) (h : Fin 256) : EReal :=
  max ((∑ e : Fin 512, x (ix3 b s e) * We (ix2 e h)) + be (ix1 h)) 0

/-- The features of a row times a 256 × 256 weight: `Σ_h feat[b,s,h] · Wp[h,d]`. -/
def projAt {B S : Nat} (x : Arr3 B S 512) (We : Arr2 512 256) (be : Arr1 256) (Wp : Arr2 256 256)
    (b : Fin B) (s : Fin S) (d : Fin 256) : EReal :=
  ∑ h : Fin 256, feat x We be b s h * Wp (ix2 h d)

/-- The projected features as an array. -/
def proj {B S : Nat} (x : Arr3 B S 512) (We : Arr2 512 256) (be : Arr1 256) (Wp : Arr2 256 256) : Arr3 B S 256 :=
  fun j => projAt x We be Wp ⟨(j 0).val, (j 0).isLt⟩ ⟨(j 1).val, (j 1).isLt⟩ ⟨(j 2).val, (j 2).isLt⟩

/-- The first hidden layer of the pair (q, k): `relu (P[b,q,f] + K[b,k,f] + c[f])`. -/
def hid0 (P : Arr3 2 256 256) (K : Arr3 2 512 256) (c : Arr1 256) (b : Fin 2) (q : Fin 256) (k : Fin 512) (f : Fin 256) : EReal :=
  max (P (ix3 b q f) + K (ix3 b k f) + c (ix1 f)) 0

/-- The second hidden layer: `relu (Σ_f hid0[f] · W1[f,g] + b1[g])`. -/
def hid1 (P : Arr3 2 256 256) (K : Arr3 2 512 256) (b0 : Arr1 256) (W1 : Arr2 256 256) (b1 : Arr1 256)
    (b : Fin 2) (q : Fin 256) (k : Fin 512) (g : Fin 256) : EReal :=
  max ((∑ f : Fin 256, hid0 P K b0 b q k f * W1 (ix2 f g)) + b1 (ix1 g)) 0

/-- The third hidden layer: `relu (Σ_g hid1[g] · W2[g,h] + b2[h])`. -/
def hid2 (P : Arr3 2 256 256) (K : Arr3 2 512 256) (b0 : Arr1 256) (W1 : Arr2 256 256) (b1 : Arr1 256)
    (W2 : Arr2 256 256) (b2 : Arr1 256) (b : Fin 2) (q : Fin 256) (k : Fin 512) (h : Fin 256) : EReal :=
  max ((∑ g : Fin 256, hid1 P K b0 W1 b1 b q k g * W2 (ix2 g h)) + b2 (ix1 h)) 0

/-- The importance logit of the pair (q, k): `Σ_h hid2[h] · Wf[h,0] + bf[0]`. -/
def logitAt (P : Arr3 2 256 256) (K : Arr3 2 512 256) (b0 : Arr1 256) (W1 : Arr2 256 256) (b1 : Arr1 256)
    (W2 : Arr2 256 256) (b2 : Arr1 256) (Wf : Arr2 256 1) (bf : Arr1 1) (b : Fin 2) (q : Fin 256) (k : Fin 512) : EReal :=
  (∑ h : Fin 256, hid2 P K b0 W1 b1 W2 b2 b q k h * Wf (ix2 h 0)) + bf (ix1 0)

/-- The importance logits as an array. -/
def logit (P : Arr3 2 256 256) (K : Arr3 2 512 256) (b0 : Arr1 256) (W1 : Arr2 256 256) (b1 : Arr1 256)
    (W2 : Arr2 256 256) (b2 : Arr1 256) (Wf : Arr2 256 1) (bf : Arr1 1) : Arr3 2 256 512 :=
  fun j => logitAt P K b0 W1 b1 W2 b2 Wf bf ⟨(j 0).val, (j 0).isLt⟩ ⟨(j 1).val, (j 1).isLt⟩ ⟨(j 2).val, (j 2).isLt⟩

/-- The softplus as both programs compute it: `max x 0 + log1p (exp (-|x - 0|))`, the absolute value `max y (-y)`. -/
def softplus (x : EReal) : EReal :=
  max x 0 + Ideal.log1p (Ideal.exp (-(max (x - 0) (-(x - 0)))))

/-- The variance head before the softplus: `Σ_h relu (P[b,q,h] + K[b,k,h] + c[h]) · Wv[h,0] + bv[0]`. -/
def preVarAt (P : Arr3 2 256 256) (K : Arr3 2 512 256) (c : Arr1 256) (Wv : Arr2 256 1) (bv : Arr1 1)
    (b : Fin 2) (q : Fin 256) (k : Fin 512) : EReal :=
  (∑ h : Fin 256, hid0 P K c b q k h * Wv (ix2 h 0)) + bv (ix1 0)

/-- The variance as an array. -/
def variance (P : Arr3 2 256 256) (K : Arr3 2 512 256) (c : Arr1 256) (Wv : Arr2 256 1) (bv : Arr1 1) : Arr3 2 256 512 :=
  fun j => softplus (preVarAt P K c Wv bv ⟨(j 0).val, (j 0).isLt⟩ ⟨(j 1).val, (j 1).isLt⟩ ⟨(j 2).val, (j 2).isLt⟩)

end Cert.Spec

end
-- ==== Proof.R0.lean ====
/-
  Region 0 (the encoders and the four projections, one batch per grid point): each of its four output arrays, after
  the region's run from the entry contents `V`, is the projection `Spec.proj` of the arrays its windows read.
-/
import proofs.«128512_j18940805775799_1_alg».proof.Proof.Gen.KernelIdeal.Frame
import proofs.«128512_j18940805775799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! ## The four contractions, read at an index

Each matrix product of the body contracts the left operand's axis 1 with the right operand's axis 0 into a zero
accumulator: at (row, column) it is the sum over `k` of left (row, k) times right (k, column). Per dimension-number
record: the four operand coordinates, then the sum re-indexed by the contraction's one coordinate. -/

theorem dotQF_l0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem dotQF_l1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
theorem dotQF_r0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem dotQF_r1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The q-side encoder product at (row, column): the sum over the 512 input channels. -/
theorem dotQF_apply {φ₁ φ₂ : FTy} (a : FVec Ideal S256x512 φ₁) (b : FVec Ideal S512x256 φ₂) (r : Fin 256) (c : Fin 256) :
    matmul (F := Ideal) dot_S256x512_S512x256_S256x256_1_0_0_1_n_n none a b (constant S256x256 .f32 0x00000000#32) (ix2 r c)
      = ∑ k : Fin 512, a (ix2 r k) * b (ix2 k c) := by
  simp only [matmul]
  rw [Ideal.matmul_constant_zero_apply, ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 r c) ((contrEquiv1 dot_S256x512_S512x256_S256x256_1_0_0_1_n_n 512 rfl rfl).symm k) = ix2 r k := funext fun x => Fin.ext (by
    match x with
    | ⟨0, _⟩ => exact dotQF_l0 _ _
    | ⟨1, _⟩ => exact (dotQF_l1 _ _).trans hk)
  have er : dot_S256x512_S512x256_S256x256_1_0_0_1_n_n.rhsIdx (ix2 r c) ((contrEquiv1 dot_S256x512_S512x256_S256x256_1_0_0_1_n_n 512 rfl rfl).symm k) = ix2 k c := funext fun x => Fin.ext (by
    match x with
    | ⟨0, _⟩ => exact (dotQF_r0 _ _).trans hk
    | ⟨1, _⟩ => exact dotQF_r1 _ _)
  rw [el, er]

theorem dotKF_l0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem dotKF_l1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem dotKF_r0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem dotKF_r1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The k-side encoder product at (row, column): the sum over the 512 input channels. -/
theorem dotKF_apply {φ₁ φ₂ : FTy} (a : FVec Ideal S512x512 φ₁) (b : FVec Ideal S512x256 φ₂) (r : Fin 512) (c : Fin 256) :
    matmul (F := Ideal) dot_S512x512_S512x256_S512x256_1_0_0_1_n_n none a b (constant S512x256 .f32 0x00000000#32) (ix2 r c)
      = ∑ k : Fin 512, a (ix2 r k) * b (ix2 k c) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 r c) ((contrEquiv1 dot_S512x512_S512x256_S512x256_1_0_0_1_n_n 512 rfl rfl).symm k) = ix2 r k := funext fun x => Fin.ext (by
    match x with
    | ⟨0, _⟩ => exact dotKF_l0 _ _
    | ⟨1, _⟩ => exact (dotKF_l1 _ _).trans hk)
  have er : dot_S512x512_S512x256_S512x256_1_0_0_1_n_n.rhsIdx (ix2 r c) ((contrEquiv1 dot_S512x512_S512x256_S512x256_1_0_0_1_n_n 512 rfl rfl).symm k) = ix2 k c := funext fun x => Fin.ext (by
    match x with
    | ⟨0, _⟩ => exact (dotKF_r0 _ _).trans hk
    | ⟨1, _⟩ => exact dotKF_r1 _ _)
  rw [el, er]

theorem dotQP_l0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem dotQP_l1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem dotQP_r0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem dotQP_r1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- A q-side projection product at (row, column): the sum over the 256 features. -/
theorem dotQP_apply {φ₁ φ₂ : FTy} (a : FVec Ideal S256x256 φ₁) (b : FVec Ideal S256x256 φ₂) (r : Fin 256) (c : Fin 256) :
    matmul (F := Ideal) dot_S256x256_S256x256_S256x256_1_0_0_1_n_n none a b (constant S256x256 .f32 0x00000000#32) (ix2 r c)
      = ∑ k : Fin 256, a (ix2 r k) * b (ix2 k c) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r c) ((contrEquiv1 dot_S256x256_S256x256_S256x256_1_0_0_1_n_n 256 rfl rfl).symm k) = ix2 r k := funext fun x => Fin.ext (by
    match x with
    | ⟨0, _⟩ => exact dotQP_l0 _ _
    | ⟨1, _⟩ => exact (dotQP_l1 _ _).trans hk)
  have er : dot_S256x256_S256x256_S256x256_1_0_0_1_n_n.rhsIdx (ix2 r c) ((contrEquiv1 dot_S256x256_S256x256_S256x256_1_0_0_1_n_n 256 rfl rfl).symm k) = ix2 k c := funext fun x => Fin.ext (by
    match x with
    | ⟨0, _⟩ => exact (dotQP_r0 _ _).trans hk
    | ⟨1, _⟩ => exact dotQP_r1 _ _)
  rw [el, er]

theorem dotKP_l0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem dotKP_l1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem dotKP_r0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem dotKP_r1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A k-side projection product at (row, column): the sum over the 256 features. -/
theorem dotKP_apply {φ₁ φ₂ : FTy} (a : FVec Ideal S512x256 φ₁) (b : FVec Ideal S256x256 φ₂) (r : Fin 512) (c : Fin 256) :
    matmul (F := Ideal) dot_S512x256_S256x256_S512x256_1_0_0_1_n_n none a b (constant S512x256 .f32 0x00000000#32) (ix2 r c)
      = ∑ k : Fin 256, a (ix2 r k) * b (ix2 k c) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 r c) ((contrEquiv1 dot_S512x256_S256x256_S512x256_1_0_0_1_n_n 256 rfl rfl).symm k) = ix2 r k := funext fun x => Fin.ext (by
    match x with
    | ⟨0, _⟩ => exact dotKP_l0 _ _
    | ⟨1, _⟩ => exact (dotKP_l1 _ _).trans hk)
  have er : dot_S512x256_S256x256_S512x256_1_0_0_1_n_n.rhsIdx (ix2 r c) ((contrEquiv1 dot_S512x256_S256x256_S512x256_1_0_0_1_n_n 256 rfl rfl).symm k) = ix2 k c := funext fun x => Fin.ext (by
    match x with
    | ⟨0, _⟩ => exact (dotKP_r0 _ _).trans hk
    | ⟨1, _⟩ => exact dotKP_r1 _ _)
  rw [el, er]

/-! ## The body's values at an index

Changes of float format are the identity on extended reals; the zero word is the real zero. -/

/-- The zero offsets of a whole-block access, however the vector of zeros is spelt. -/
theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

/-- The q-side features of a block at (row `s`, feature `h`): the row times the encoder weight's column, plus the
    bias, clipped below at zero. -/
theorem qfeat_apply (x : Vec Ideal S1x256x512 .f32) (w : Vec Ideal S512x256 .f32) (b : Vec Ideal S256 .f32) (s : Fin 256) (h : Fin 256) :
    k0_pay5 (F := Ideal) x w b (ix2 s h) = max ((∑ e : Fin 512, x (ix3 (0 : Fin 1) s e) * w (ix2 e h)) + b (ix1 h)) 0 := by
  unfold k0_pay5
  simp only [truncf_apply, maximumf_apply, addf_apply, broadcast_apply, dotQF_apply, broadcastTo_1b_ab_apply, shapeCast_a_1a_apply, shapeCast_1ab_ab_apply]
  show max _ (Ideal.ofBits .f32 0x00000000#32) = _
  rw [Ideal.ofBits_zero_f32]

/-- The k-side features of a block at (row `s`, feature `h`). -/
theorem kfeat_apply (x : Vec Ideal S1x512x512 .f32) (w : Vec Ideal S512x256 .f32) (b : Vec Ideal S256 .f32) (s : Fin 512) (h : Fin 256) :
    k0_pay6 (F := Ideal) x w b (ix2 s h) = max ((∑ e : Fin 512, x (ix3 (0 : Fin 1) s e) * w (ix2 e h)) + b (ix1 h)) 0 := by
  unfold k0_pay6
  simp only [truncf_apply, maximumf_apply, addf_apply, broadcast_apply, dotKF_apply, broadcastTo_1b_ab_apply, shapeCast_a_1a_apply, shapeCast_1ab_ab_apply]
  show max _ (Ideal.ofBits .f32 0x00000000#32) = _
  rw [Ideal.ofBits_zero_f32]

/-- A projection weight as the kernel casts it before the product: the same entries. -/
theorem wcast7_apply (p : Vec Ideal S256x256 .f32) (j : S256x256.Idx) : k0_pay7 (F := Ideal) p j = p j := by
  unfold k0_pay7; simp only [truncf_apply, shapeCast_self]
theorem wcast8_apply (p : Vec Ideal S256x256 .f32) (j : S256x256.Idx) : k0_pay8 (F := Ideal) p j = p j := by
  unfold k0_pay8; simp only [truncf_apply, shapeCast_self]
theorem wcast9_apply (p : Vec Ideal S256x256 .f32) (j : S256x256.Idx) : k0_pay9 (F := Ideal) p j = p j := by
  unfold k0_pay9; simp only [truncf_apply, shapeCast_self]

/-- The four stores' payloads at (unit, row `s`, column `d`): the features' row times the weight's column. -/
theorem qimp_apply (f : FVec Ideal S256x256 .bf16) (p : FVec Ideal S256x256 .bf16) (u : Fin 1) (s d : Fin 256) :
    k0_pay1 (F := Ideal) f p (ix3 u s d) = ∑ h : Fin 256, f (ix2 s h) * p (ix2 h d) := by
  unfold k0_pay1
  simp only [shapeCast_ab_1ab_apply, dotQP_apply]
theorem kimp_apply (f : FVec Ideal S512x256 .bf16) (p : FVec Ideal S256x256 .bf16) (u : Fin 1) (s : Fin 512) (d : Fin 256) :
    k0_pay2 (F := Ideal) f p (ix3 u s d) = ∑ h : Fin 256, f (ix2 s h) * p (ix2 h d) := by
  unfold k0_pay2
  simp only [shapeCast_ab_1ab_apply, dotKP_apply]
theorem qvar_apply (f : FVec Ideal S256x256 .bf16) (p : FVec Ideal S256x256 .bf16) (u : Fin 1) (s d : Fin 256) :
    k0_pay3 (F := Ideal) f p (ix3 u s d) = ∑ h : Fin 256, f (ix2 s h) * p (ix2 h d) := by
  unfold k0_pay3
  simp only [shapeCast_ab_1ab_apply, dotQP_apply]
theorem kvar_apply (f : FVec Ideal S512x256 .bf16) (p : Vec Ideal S256x256 .f32) (u : Fin 1) (s : Fin 512) (d : Fin 256) :
    k0_pay4 (F := Ideal) f p (ix3 u s d) = ∑ h : Fin 256, f (ix2 s h) * p (ix2 h d) := by
  unfold k0_pay4
  simp only [shapeCast_ab_1ab_apply, dotKP_apply, truncf_apply, shapeCast_self]

/-! ## One entry of an output block against the array formula

Stated over variables of the literal types: `imp` is the store's payload as a function of the features, its weight
already in place; the hypotheses say where the loaded blocks sit in the arrays. -/

/-- The q shape: the block's entry (unit, `s`, `d`) is the projection of batch `bt`, row `s`, column `d`. -/
theorem qpoint (imp : FVec Ideal S256x256 .bf16 → FVec Ideal S1x256x256 .f32) (Wp : Vec Ideal S256x256 .f32)
    (himp : ∀ f (u : Fin 1) (s d : Fin 256), imp f (ix3 u s d) = ∑ h : Fin 256, f (ix2 s h) * Wp (ix2 h d))
    (X : Vec Ideal S2x256x512 .f32) (We : Vec Ideal S512x256 .f32) (be : Vec Ideal S256 .f32)
    (x : Vec Ideal S1x256x512 .f32) (w : Vec Ideal S512x256 .f32) (b : Vec Ideal S256 .f32) (bt : Fin 2)
    (hx : ∀ (s : Fin 256) (e : Fin 512), x (ix3 (0 : Fin 1) s e) = X (ix3 bt s e)) (hw : w = We) (hb : b = be)
    (j : S1x256x256.Idx) (i : S2x256x256.Idx) (hi0 : (i 0).val = bt.val) (hi1 : (i 1).val = (j 1).val) (hi2 : (i 2).val = (j 2).val) :
    imp (k0_pay5 (F := Ideal) x w b) j = Cert.Spec.proj X We be Wp i := by
  subst hw hb
  obtain ⟨u, s, d, rfl⟩ : ∃ (u : Fin 1) (s d : Fin 256), j = ix3 u s d := ⟨j 0, j 1, j 2, eq_ix3 j⟩
  have e0 : (⟨(i 0).val, (i 0).isLt⟩ : Fin 2) = bt := Fin.ext hi0
  have e1 : (⟨(i 1).val, (i 1).isLt⟩ : Fin 256) = s := Fin.ext hi1
  have e2 : (⟨(i 2).val, (i 2).isLt⟩ : Fin 256) = d := Fin.ext hi2
  rw [himp]
  show _ = Cert.Spec.projAt X w b Wp ⟨(i 0).val, (i 0).isLt⟩ ⟨(i 1).val, (i 1).isLt⟩ ⟨(i 2).val, (i 2).isLt⟩
  rw [e0, e1, e2]
  unfold Cert.Spec.projAt Cert.Spec.feat
  simp only [qfeat_apply, hx]

/-- The k shape: the same over 512 rows. -/
theorem kpoint (imp : FVec Ideal S512x256 .bf16 → FVec Ideal S1x512x256 .f32) (Wp : Vec Ideal S256x256 .f32)
    (himp : ∀ f (u : Fin 1) (s : Fin 512) (d : Fin 256), imp f (ix3 u s d) = ∑ h : Fin 256, f (ix2 s h) * Wp (ix2 h d))
    (X : Vec Ideal S2x512x512 .f32) (We : Vec Ideal S512x256 .f32) (be : Vec Ideal S256 .f32)
    (x : Vec Ideal S1x512x512 .f32) (w : Vec Ideal S512x256 .f32) (b : Vec Ideal S256 .f32) (bt : Fin 2)
    (hx : ∀ (s : Fin 512) (e : Fin 512), x (ix3 (0 : Fin 1) s e) = X (ix3 bt s e)) (hw : w = We) (hb : b = be)
    (j : S1x512x256.Idx) (i : S2x512x256.Idx) (hi0 : (i 0).val = bt.val) (hi1 : (i 1).val = (j 1).val) (hi2 : (i 2).val = (j 2).val) :
    imp (k0_pay6 (F := Ideal) x w b) j = Cert.Spec.proj X We be Wp i := by
  subst hw hb
  obtain ⟨u, s, d, rfl⟩ : ∃ (u : Fin 1) (s : Fin 512) (d : Fin 256), j = ix3 u s d := ⟨j 0, j 1, j 2, eq_ix3 j⟩
  have e0 : (⟨(i 0).val, (i 0).isLt⟩ : Fin 2) = bt := Fin.ext hi0
  have e1 : (⟨(i 1).val, (i 1).isLt⟩ : Fin 512) = s := Fin.ext hi1
  have e2 : (⟨(i 2).val, (i 2).isLt⟩ : Fin 256) = d := Fin.ext hi2
  rw [himp]
  show _ = Cert.Spec.projAt X w b Wp ⟨(i 0).val, (i 0).isLt⟩ ⟨(i 1).val, (i 1).isLt⟩ ⟨(i 2).val, (i 2).isLt⟩
  rw [e0, e1, e2]
  unfold Cert.Spec.projAt Cert.Spec.feat
  simp only [kfeat_apply, hx]

/-! ## The grid -/

/-- The windows' index maps at a point of region 0, decided over its two points: the query, key and output windows sit
    at block (t, 0, 0), the weights and biases at their one block. -/
theorem idx0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0)
    ∧ (win0_12.index t (0 : Fin 3) = t.val ∧ win0_12.index t (1 : Fin 3) = 0 ∧ win0_12.index t (2 : Fin 3) = 0)
    ∧ (win0_13.index t (0 : Fin 3) = t.val ∧ win0_13.index t (1 : Fin 3) = 0 ∧ win0_13.index t (2 : Fin 3) = 0) :=
  (by decide +kernel : ∀ t : Fin grid0.N, _)

/-- A point of region 0 as a batch number. -/
def batchOf (t : Fin cfg0.N) : Fin 2 := ⟨t.val, by have h : t.val < grid0.N := t.isLt; rw [N_0] at h; exact h⟩

/-- An index is in an output window's block iff each coordinate is in the block's range on its axis. -/
theorem mem_blk10 (t : Fin cfg0.N) (i : S2x256x256.Idx) :
    i ∈ ((cfg0.win 10).blk t).view.set ↔ ∀ a : Fin 3, win0_10.index t a * S1x256x256.size a ≤ (i a).val ∧ (i a).val < win0_10.index t a * S1x256x256.size a + S1x256x256.size a := by
  show i ∈ ((View.whole main_v4_0).slice (win0_10.rect t)).set ↔ _
  rw [View.set_slice_whole, Rect.mem_set_unit]
  exact Iff.rfl
theorem mem_blk11 (t : Fin cfg0.N) (i : S2x512x256.Idx) :
    i ∈ ((cfg0.win 11).blk t).view.set ↔ ∀ a : Fin 3, win0_11.index t a * S1x512x256.size a ≤ (i a).val ∧ (i a).val < win0_11.index t a * S1x512x256.size a + S1x512x256.size a := by
  show i ∈ ((View.whole main_v4_1).slice (win0_11.rect t)).set ↔ _
  rw [View.set_slice_whole, Rect.mem_set_unit]
  exact Iff.rfl
theorem mem_blk12 (t : Fin cfg0.N) (i : S2x256x256.Idx) :
    i ∈ ((cfg0.win 12).blk t).view.set ↔ ∀ a : Fin 3, win0_12.index t a * S1x256x256.size a ≤ (i a).val ∧ (i a).val < win0_12.index t a * S1x256x256.size a + S1x256x256.size a := by
  show i ∈ ((View.whole main_v4_2).slice (win0_12.rect t)).set ↔ _
  rw [View.set_slice_whole, Rect.mem_set_unit]
  exact Iff.rfl
theorem mem_blk13 (t : Fin cfg0.N) (i : S2x512x256.Idx) :
    i ∈ ((cfg0.win 13).blk t).view.set ↔ ∀ a : Fin 3, win0_13.index t a * S1x512x256.size a ≤ (i a).val ∧ (i a).val < win0_13.index t a * S1x512x256.size a + S1x512x256.size a := by
  show i ∈ ((View.whole main_v4_3).slice (win0_13.rect t)).set ↔ _
  rw [View.set_slice_whole, Rect.mem_set_unit]
  exact Iff.rfl

/-- Every index of an output array lies in the block of the point that is its batch coordinate. -/
theorem cover10 (i : S2x256x256.Idx) : ∃ t : Fin cfg0.N, (cfg0.win 10).flush t = true ∧ i ∈ ((cfg0.win 10).blk t).view.set := by
  have h0 : (i 0).val < 2 := (i 0).isLt
  have h1 : (i 1).val < 256 := (i 1).isLt
  have h2 : (i 2).val < 256 := (i 2).isLt
  have ht : (i 0).val < grid0.N := by rw [N_0]; exact h0
  obtain ⟨-, -, -, -, -, -, -, -, -, -, ⟨a0, a1, a2⟩, -⟩ := idx0 ⟨(i 0).val, ht⟩
  refine ⟨⟨(i 0).val, ht⟩, flush0_10 _, ?_⟩
  rw [mem_blk10]
  intro a
  match a with
  | ⟨0, _⟩ => show win0_10.index ⟨(i 0).val, ht⟩ (0 : Fin 3) * 1 ≤ (i 0).val ∧ (i 0).val < win0_10.index ⟨(i 0).val, ht⟩ (0 : Fin 3) * 1 + 1; rw [a0]; show (i 0).val * 1 ≤ (i 0).val ∧ (i 0).val < (i 0).val * 1 + 1; omega
  | ⟨1, _⟩ => show win0_10.index ⟨(i 0).val, ht⟩ (1 : Fin 3) * 256 ≤ (i 1).val ∧ (i 1).val < win0_10.index ⟨(i 0).val, ht⟩ (1 : Fin 3) * 256 + 256; rw [a1]; omega
  | ⟨2, _⟩ => show win0_10.index ⟨(i 0).val, ht⟩ (2 : Fin 3) * 256 ≤ (i 2).val ∧ (i 2).val < win0_10.index ⟨(i 0).val, ht⟩ (2 : Fin 3) * 256 + 256; rw [a2]; omega
theorem cover11 (i : S2x512x256.Idx) : ∃ t : Fin cfg0.N, (cfg0.win 11).flush t = true ∧ i ∈ ((cfg0.win 11).blk t).view.set := by
  have h0 : (i 0).val < 2 := (i 0).isLt
  have h1 : (i 1).val < 512 := (i 1).isLt
  have h2 : (i 2).val < 256 := (i 2).isLt
  have ht : (i 0).val < grid0.N := by rw [N_0]; exact h0
  obtain ⟨-, -, -, -, -, -, -, -, -, -, -, ⟨a0, a1, a2⟩, -⟩ := idx0 ⟨(i 0).val, ht⟩
  refine ⟨⟨(i 0).val, ht⟩, flush0_11 _, ?_⟩
  rw [mem_blk11]
  intro a
  match a with
  | ⟨0, _⟩ => show win0_11.index ⟨(i 0).val, ht⟩ (0 : Fin 3) * 1 ≤ (i 0).val ∧ (i 0).val < win0_11.index ⟨(i 0).val, ht⟩ (0 : Fin 3) * 1 + 1; rw [a0]; show (i 0).val * 1 ≤ (i 0).val ∧ (i 0).val < (i 0).val * 1 + 1; omega
  | ⟨1, _⟩ => show win0_11.index ⟨(i 0).val, ht⟩ (1 : Fin 3) * 512 ≤ (i 1).val ∧ (i 1).val < win0_11.index ⟨(i 0).val, ht⟩ (1 : Fin 3) * 512 + 512; rw [a1]; omega
  | ⟨2, _⟩ => show win0_11.index ⟨(i 0).val, ht⟩ (2 : Fin 3) * 256 ≤ (i 2).val ∧ (i 2).val < win0_11.index ⟨(i 0).val, ht⟩ (2 : Fin 3) * 256 + 256; rw [a2]; omega
theorem cover12 (i : S2x256x256.Idx) : ∃ t : Fin cfg0.N, (cfg0.win 12).flush t = true ∧ i ∈ ((cfg0.win 12).blk t).view.set := by
  have h0 : (i 0).val < 2 := (i 0).isLt
  have h1 : (i 1).val < 256 := (i 1).isLt
  have h2 : (i 2).val < 256 := (i 2).isLt
  have ht : (i 0).val < grid0.N := by rw [N_0]; exact h0
  obtain ⟨-, -, -, -, -, -, -, -, -, -, -, -, ⟨a0, a1, a2⟩, -⟩ := idx0 ⟨(i 0).val, ht⟩
  refine ⟨⟨(i 0).val, ht⟩, flush0_12 _, ?_⟩
  rw [mem_blk12]
  intro a
  match a with
  | ⟨0, _⟩ => show win0_12.index ⟨(i 0).val, ht⟩ (0 : Fin 3) * 1 ≤ (i 0).val ∧ (i 0).val < win0_12.index ⟨(i 0).val, ht⟩ (0 : Fin 3) * 1 + 1; rw [a0]; show (i 0).val * 1 ≤ (i 0).val ∧ (i 0).val < (i 0).val * 1 + 1; omega
  | ⟨1, _⟩ => show win0_12.index ⟨(i 0).val, ht⟩ (1 : Fin 3) * 256 ≤ (i 1).val ∧ (i 1).val < win0_12.index ⟨(i 0).val, ht⟩ (1 : Fin 3) * 256 + 256; rw [a1]; omega
  | ⟨2, _⟩ => show win0_12.index ⟨(i 0).val, ht⟩ (2 : Fin 3) * 256 ≤ (i 2).val ∧ (i 2).val < win0_12.index ⟨(i 0).val, ht⟩ (2 : Fin 3) * 256 + 256; rw [a2]; omega
theorem cover13 (i : S2x512x256.Idx) : ∃ t : Fin cfg0.N, (cfg0.win 13).flush t = true ∧ i ∈ ((cfg0.win 13).blk t).view.set := by
  have h0 : (i 0).val < 2 := (i 0).isLt
  have h1 : (i 1).val < 512 := (i 1).isLt
  have h2 : (i 2).val < 256 := (i 2).isLt
  have ht : (i 0).val < grid0.N := by rw [N_0]; exact h0
  obtain ⟨-, -, -, -, -, -, -, -, -, -, -, -, -, ⟨a0, a1, a2⟩⟩ := idx0 ⟨(i 0).val, ht⟩
  refine ⟨⟨(i 0).val, ht⟩, flush0_13 _, ?_⟩
  rw [mem_blk13]
  intro a
  match a with
  | ⟨0, _⟩ => show win0_13.index ⟨(i 0).val, ht⟩ (0 : Fin 3) * 1 ≤ (i 0).val ∧ (i 0).val < win0_13.index ⟨(i 0).val, ht⟩ (0 : Fin 3) * 1 + 1; rw [a0]; show (i 0).val * 1 ≤ (i 0).val ∧ (i 0).val < (i 0).val * 1 + 1; omega
  | ⟨1, _⟩ => show win0_13.index ⟨(i 0).val, ht⟩ (1 : Fin 3) * 512 ≤ (i 1).val ∧ (i 1).val < win0_13.index ⟨(i 0).val, ht⟩ (1 : Fin 3) * 512 + 512; rw [a1]; omega
  | ⟨2, _⟩ => show win0_13.index ⟨(i 0).val, ht⟩ (2 : Fin 3) * 256 ≤ (i 2).val ∧ (i 2).val < win0_13.index ⟨(i 0).val, ht⟩ (2 : Fin 3) * 256 + 256; rw [a2]; omega

-- the TensorCore's buffer contents when the region is entered, at the extended reals
variable (V : (c : Dev nD) → (b : Ref sig .tc) → Buf (Elt Ideal) ((c : Thread nD τ).loc b))

/-! ## The input windows' blocks, read off the arrays

A block's entry sits in its array at block index times block extent plus the coordinate inside the block, axis by axis. -/

/-- The query block at point `t` is batch `t` of the query array. -/
theorem qblk_eq (c : Dev nD) (t : Fin cfg0.N) (s : Fin 256) (e : Fin 512) :
    iblk0 (F := Ideal) V c 0 t (ix3 (0 : Fin 1) s e) = V c main_arg0 (ix3 (batchOf t) s e) := by
  obtain ⟨⟨a0, a1, a2⟩, -⟩ := idx0 t
  show V c main_arg0 (((cfg0.win 0).blk t).view.emb (ix3 (0 : Fin 1) s e)) = V c main_arg0 (ix3 (batchOf t) s e)
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 256 + 1 * s.val = s.val; omega
  | ⟨2, _⟩ => show win0_0.index t (2 : Fin 3) * 512 + 1 * e.val = e.val; omega

/-- The key block at point `t` is batch `t` of the key array. -/
theorem kblk_eq (c : Dev nD) (t : Fin cfg0.N) (s : Fin 512) (e : Fin 512) :
    iblk0 (F := Ideal) V c 1 t (ix3 (0 : Fin 1) s e) = V c main_arg1 (ix3 (batchOf t) s e) := by
  obtain ⟨-, ⟨a0, a1, a2⟩, -⟩ := idx0 t
  show V c main_arg1 (((cfg0.win 1).blk t).view.emb (ix3 (0 : Fin 1) s e)) = V c main_arg1 (ix3 (batchOf t) s e)
  refine congrArg (V c main_arg1) (funext fun a => Fin.ext ?_)
  match a with
  | ⟨0, _⟩ => show win0_1.index t (0 : Fin 3) * 1 + 1 * 0 = t.val; omega
  | ⟨1, _⟩ => show win0_1.index t (1 : Fin 3) * 512 + 1 * s.val = s.val; omega
  | ⟨2, _⟩ => show win0_1.index t (2 : Fin 3) * 512 + 1 * e.val = e.val; omega

/-- A whole-array window's block is the array: the encoder weights and biases, … -/
theorem wq_eq (c : Dev nD) (t : Fin cfg0.N) : iblk0 (F := Ideal) V c 2 t = V c main_arg2 := by
  obtain ⟨-, -, ⟨a0, a1⟩, -⟩ := idx0 t
  funext y
  show V c main_arg2 (((cfg0.win 2).blk t).view.emb y) = V c main_arg2 y
  refine congrArg (V c main_arg2) (funext fun a => Fin.ext ?_)
  match a with
  | ⟨0, _⟩ => show win0_2.index t (0 : Fin 2) * 512 + 1 * (y 0).val = (y 0).val; omega
  | ⟨1, _⟩ => show win0_2.index t (1 : Fin 2) * 256 + 1 * (y 1).val = (y 1).val; omega
theorem bq_eq (c : Dev nD) (t : Fin cfg0.N) : iblk0 (F := Ideal) V c 3 t = V c main_arg3 := by
  obtain ⟨-, -, -, a0, -⟩ := idx0 t
  funext y
  show V c main_arg3 (((cfg0.win 3).blk t).view.emb y) = V c main_arg3 y
  refine congrArg (V c main_arg3) (funext fun a => Fin.ext ?_)
  match a with
  | ⟨0, _⟩ => show win0_3.index t (0 : Fin 1) * 256 + 1 * (y 0).val = (y 0).val; omega
theorem wk_eq (c : Dev nD) (t : Fin cfg0.N) : iblk0 (F := Ideal) V c 4 t = V c main_arg4 := by
  obtain ⟨-, -, -, -, ⟨a0, a1⟩, -⟩ := idx0 t
  funext y
  show V c main_arg4 (((cfg0.win 4).blk t).view.emb y) = V c main_arg4 y
  refine congrArg (V c main_arg4) (funext fun a => Fin.ext ?_)
  match a with
  | ⟨0, _⟩ => show win0_4.index t (0 : Fin 2) * 512 + 1 * (y 0).val = (y 0).val; omega
  | ⟨1, _⟩ => show win0_4.index t (1 : Fin 2) * 256 + 1 * (y 1).val = (y 1).val; omega
theorem bk_eq (c : Dev nD) (t : Fin cfg0.N) : iblk0 (F := Ideal) V c 5 t = V c main_arg5 := by
  obtain ⟨-, -, -, -, -, a0, -⟩ := idx0 t
  funext y
  show V c main_arg5 (((cfg0.win 5).blk t).view.emb y) = V c main_arg5 y
  refine congrArg (V c main_arg5) (funext fun a => Fin.ext ?_)
  match a with
  | ⟨0, _⟩ => show win0_5.index t (0 : Fin 1) * 256 + 1 * (y 0).val = (y 0).val; omega

/-- … and the four projection weights. -/
theorem p6_eq (c : Dev nD) (t : Fin cfg0.N) : iblk0 (F := Ideal) V c 6 t = V c main_v0 := by
  obtain ⟨-, -, -, -, -, -, ⟨a0, a1⟩, -⟩ := idx0 t
  funext y
  show V c main_v0 (((cfg0.win 6).blk t).view.emb y) = V c main_v0 y
  refine congrArg (V c main_v0) (funext fun a => Fin.ext ?_)
  match a with
  | ⟨0, _⟩ => show win0_6.index t (0 : Fin 2) * 256 + 1 * (y 0).val = (y 0).val; omega
  | ⟨1, _⟩ => show win0_6.index t (1 : Fin 2) * 256 + 1 * (y 1).val = (y 1).val; omega
theorem p7_eq (c : Dev nD) (t : Fin cfg0.N) : iblk0 (F := Ideal) V c 7 t = V c main_v1 := by
  obtain ⟨-, -, -, -, -, -, -, ⟨a0, a1⟩, -⟩ := idx0 t
  funext y
  show V c main_v1 (((cfg0.win 7).blk t).view.emb y) = V c main_v1 y
  refine congrArg (V c main_v1) (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega
theorem p8_eq (c : Dev nD) (t : Fin cfg0.N) : iblk0 (F := Ideal) V c 8 t = V c main_v2 := by
  obtain ⟨-, -, -, -, -, -, -, -, ⟨a0, a1⟩, -⟩ := idx0 t
  funext y
  show V c main_v2 (((cfg0.win 8).blk t).view.emb y) = V c main_v2 y
  refine congrArg (V c main_v2) (funext fun a => Fin.ext ?_)
  match a with
  | ⟨0, _⟩ => show win0_8.index t (0 : Fin 2) * 256 + 1 * (y 0).val = (y 0).val; omega
  | ⟨1, _⟩ => show win0_8.index t (1 : Fin 2) * 256 + 1 * (y 1).val = (y 1).val; omega
theorem p9_eq (c : Dev nD) (t : Fin cfg0.N) : iblk0 (F := Ideal) V c 9 t = V c main_v3 := by
  obtain ⟨-, -, -, -, -, -, -, -, -, ⟨a0, a1⟩, -⟩ := idx0 t
  funext y
  show V c main_v3 (((cfg0.win 9).blk t).view.emb y) = V c main_v3 y
  refine congrArg (V c main_v3) (funext fun a => Fin.ext ?_)
  match a with
  | ⟨0, _⟩ => show win0_9.index t (0 : Fin 2) * 256 + 1 * (y 0).val = (y 0).val; omega
  | ⟨1, _⟩ => show win0_9.index t (1 : Fin 2) * 256 + 1 * (y 1).val = (y 1).val; omega

/-! ## What a point writes back: its block of the projection of the arrays

The body's one whole-block store per output window leaves its payload; the payload at an entry is the projection at the
entry's place in the array (`qpoint`, `kpoint`), the loaded blocks read where the output block's rectangle says. -/

theorem flushed10_eq (c : Dev nD) (t : Fin cfg0.N) :
    (dat0 (F := Ideal) V c).flushed 10 t
      = ((cfg0.win 10).blk t).view.read (Elt Ideal) (Cert.Spec.proj (V c main_arg0) (V c main_arg2) (V c main_arg3) (V c main_v0)) := by
  show (cfg0.win 10).cut (grid0.coords t) ((dat0 V c).after 10 t) = _
  rw [after0_10]
  unfold out0_10
  rw [View.canon_unit_zero z3]
  simp only [View.ld_unit_zero (S := S1x256x512) z3, View.ld_unit_zero (S := S512x256) z2, View.ld_unit_zero (S := S256) z1, View.ld_unit_zero (S := S256x256) z2]
  obtain ⟨-, -, -, -, -, -, -, -, -, -, ⟨a0, a1, a2⟩, -⟩ := idx0 t
  funext j
  refine qpoint (fun f => k0_pay1 f (k0_pay7 (iblk0 V c 6 t))) (V c main_v0)
    (fun f u s d => by rw [qimp_apply]; simp only [wcast7_apply, p6_eq V c t])
    (V c main_arg0) (V c main_arg2) (V c main_arg3) (iblk0 V c 0 t) (iblk0 V c 2 t) (iblk0 V c 3 t) (batchOf t)
    (qblk_eq V c t) (wq_eq V c t) (bq_eq V c t) j (((cfg0.win 10).blk t).view.emb j) ?_ ?_ ?_
  · show win0_10.index t (0 : Fin 3) * 1 + 1 * (j 0).val = t.val
    have hj : (j 0).val < 1 := (j 0).isLt
    omega
  · show win0_10.index t (1 : Fin 3) * 256 + 1 * (j 1).val = (j 1).val
    omega
  · show win0_10.index t (2 : Fin 3) * 256 + 1 * (j 2).val = (j 2).val
    omega

theorem flushed11_eq (c : Dev nD) (t : Fin cfg0.N) :
    (dat0 (F := Ideal) V c).flushed 11 t
      = ((cfg0.win 11).blk t).view.read (Elt Ideal) (Cert.Spec.proj (V c main_arg1) (V c main_arg4) (V c main_arg5) (V c main_v1)) := by
  show (cfg0.win 11).cut (grid0.coords t) ((dat0 V c).after 11 t) = _
  rw [after0_11]
  unfold out0_11
  rw [View.canon_unit_zero z3]
  simp only [View.ld_unit_zero (S := S1x512x512) z3, View.ld_unit_zero (S := S512x256) z2, View.ld_unit_zero (S := S256) z1, View.ld_unit_zero (S := S256x256) z2]
  obtain ⟨-, -, -, -, -, -, -, -, -, -, -, ⟨a0, a1, a2⟩, -⟩ := idx0 t
  funext j
  refine kpoint (fun f => k0_pay2 f (k0_pay8 (iblk0 V c 7 t))) (V c main_v1)
    (fun f u s d => by rw [kimp_apply]; simp only [wcast8_apply, p7_eq V c t])
    (V c main_arg1) (V c main_arg4) (V c main_arg5) (iblk0 V c 1 t) (iblk0 V c 4 t) (iblk0 V c 5 t) (batchOf t)
    (kblk_eq V c t) (wk_eq V c t) (bk_eq V c t) j (((cfg0.win 11).blk t).view.emb j) ?_ ?_ ?_
  · show win0_11.index t (0 : Fin 3) * 1 + 1 * (j 0).val = t.val
    have hj : (j 0).val < 1 := (j 0).isLt
    omega
  · show win0_11.index t (1 : Fin 3) * 512 + 1 * (j 1).val = (j 1).val
    omega
  · show win0_11.index t (2 : Fin 3) * 256 + 1 * (j 2).val = (j 2).val
    omega

theorem flushed12_eq (c : Dev nD) (t : Fin cfg0.N) :
    (dat0 (F := Ideal) V c).flushed 12 t
      = ((cfg0.win 12).blk t).view.read (Elt Ideal) (Cert.Spec.proj (V c main_arg0) (V c main_arg2) (V c main_arg3) (V c main_v2)) := by
  show (cfg0.win 12).cut (grid0.coords t) ((dat0 V c).after 12 t) = _
  rw [after0_12]
  unfold out0_12
  rw [View.canon_unit_zero z3]
  simp only [View.ld_unit_zero (S := S1x256x512) z3, View.ld_unit_zero (S := S512x256) z2, View.ld_unit_zero (S := S256) z1, View.ld_unit_zero (S := S256x256) z2]
  obtain ⟨-, -, -, -, -, -, -, -, -, -, -, -, ⟨a0, a1, a2⟩, -⟩ := idx0 t
  funext j
  refine qpoint (fun f => k0_pay3 f (k0_pay9 (iblk0 V c 8 t))) (V c main_v2)
    (fun f u s d => by rw [qvar_apply]; simp only [wcast9_apply, p8_eq V c t])
    (V c main_arg0) (V c main_arg2) (V c main_arg3) (iblk0 V c 0 t) (iblk0 V c 2 t) (iblk0 V c 3 t) (batchOf t)
    (qblk_eq V c t) (wq_eq V c t) (bq_eq V c t) j (((cfg0.win 12).blk t).view.emb j) ?_ ?_ ?_
  · show win0_12.index t (0 : Fin 3) * 1 + 1 * (j 0).val = t.val
    have hj : (j 0).val < 1 := (j 0).isLt
    omega
  · show win0_12.index t (1 : Fin 3) * 256 + 1 * (j 1).val = (j 1).val
    omega
  · show win0_12.index t (2 : Fin 3) * 256 + 1 * (j 2).val = (j 2).val
    omega

theorem flushed13_eq (c : Dev nD) (t : Fin cfg0.N) :
    (dat0 (F := Ideal) V c).flushed 13 t
      = ((cfg0.win 13).blk t).view.read (Elt Ideal) (Cert.Spec.proj (V c main_arg1) (V c main_arg4) (V c main_arg5) (V c main_v3)) := by
  show (cfg0.win 13).cut (grid0.coords t) ((dat0 V c).after 13 t) = _
  rw [after0_13]
  unfold out0_13
  rw [View.canon_unit_zero z3]
  simp only [View.ld_unit_zero (S := S1x512x512) z3, View.ld_unit_zero (S := S512x256) z2, View.ld_unit_zero (S := S256) z1, View.ld_unit_zero (S := S256x256) z2]
  obtain ⟨-, -, -, -, -, -, -, -, -, -, -, -, -, ⟨a0, a1, a2⟩⟩ := idx0 t
  funext j
  refine kpoint (fun f => k0_pay4 f (iblk0 V c 9 t)) (V c main_v3)
    (fun f u s d => by rw [kvar_apply]; simp only [p9_eq V c t])
    (V c main_arg1) (V c main_arg4) (V c main_arg5) (iblk0 V c 1 t) (iblk0 V c 4 t) (iblk0 V c 5 t) (batchOf t)
    (kblk_eq V c t) (wk_eq V c t) (bk_eq V c t) j (((cfg0.win 13).blk t).view.emb j) ?_ ?_ ?_
  · show win0_13.index t (0 : Fin 3) * 1 + 1 * (j 0).val = t.val
    have hj : (j 0).val < 1 := (j 0).isLt
    omega
  · show win0_13.index t (1 : Fin 3) * 512 + 1 * (j 1).val = (j 1).val
    omega
  · show win0_13.index t (2 : Fin 3) * 256 + 1 * (j 2).val = (j 2).val
    omega

/-! ## The four arrays after the region: every index is covered, so each array is the projection. -/

/-- The q-side importance projection: features of `query` under (Wqe, bqe), times the first half of W0. -/
theorem final0_10 (c : Dev nD) :
    (dat0 (F := Ideal) V c).arrAt 10 cfg0.N = Cert.Spec.proj (V c main_arg0) (V c main_arg2) (V c main_arg3) (V c main_v0) := by
  exact (dat0 (F := Ideal) V c).arrAt_eq_of_cover 10 (Cert.Spec.proj (V c main_arg0) (V c main_arg2) (V c main_arg3) (V c main_v0))
    (fun t _ => flushed10_eq V c t) cover10

/-- The k-side importance projection: features of `key` under (Wke, bke), times the second half of W0. -/
theorem final0_11 (c : Dev nD) :
    (dat0 (F := Ideal) V c).arrAt 11 cfg0.N = Cert.Spec.proj (V c main_arg1) (V c main_arg4) (V c main_arg5) (V c main_v1) := by
  exact (dat0 (F := Ideal) V c).arrAt_eq_of_cover 11 (Cert.Spec.proj (V c main_arg1) (V c main_arg4) (V c main_arg5) (V c main_v1))
    (fun t _ => flushed11_eq V c t) cover11

/-- The q-side variance projection: the same features times the first half of Wv1. -/
theorem final0_12 (c : Dev nD) :
    (dat0 (F := Ideal) V c).arrAt 12 cfg0.N = Cert.Spec.proj (V c main_arg0) (V c main_arg2) (V c main_arg3) (V c main_v2) := by
  exact (dat0 (F := Ideal) V c).arrAt_eq_of_cover 12 (Cert.Spec.proj (V c main_arg0) (V c main_arg2) (V c main_arg3) (V c main_v2))
    (fun t _ => flushed12_eq V c t) cover12

/-- The k-side variance projection: the same features times the second half of Wv1. -/
theorem final0_13 (c : Dev nD) :
    (dat0 (F := Ideal) V c).arrAt 13 cfg0.N = Cert.Spec.proj (V c main_arg1) (V c main_arg4) (V c main_arg5) (V c main_v3) := by
  exact (dat0 (F := Ideal) V c).arrAt_eq_of_cover 13 (Cert.Spec.proj (V c main_arg1) (V c main_arg4) (V c main_arg5) (V c main_v3))
    (fun t _ => flushed13_eq V c t) cover13

end Cert.KernelIdeal.Val

end
-- ==== Proof.R1Log.lean ====
/-
  Region 1 (the pairwise network, a 32 × 128 tile of pairs per grid point): its first output array, after the region's
  run from the entry contents `V`, is the importance logits `Spec.logit` of the arrays its windows read.

  The body's logit payload is a head over two dense layers over the first hidden layer, the 32 × 128 pairs laid out as
  4096 rows (pair `(i, j)` is row `i · 128 + j`). Each stage is read at an entry; the stored block at `(0, i, j)` is then
  the logit of the pair whose query row and key row the two loaded blocks hold at `i` and `j`. Point `t` writes back
  block `t` of the logits' array, and the grid's blocks cover the array.
-/
import proofs.«128512_j18940805775799_1_alg».proof.Proof.Gen.KernelIdeal.Frame
import proofs.«128512_j18940805775799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the TensorCore's buffer contents when the region is entered, at the extended reals
variable (V : (c : Dev nD) → (b : Ref sig .tc) → Buf (Elt Ideal) ((c : Thread nD τ).loc b))

/-! The stages of the logit payload, the block reads and the cover: this module's own lemmas. -/
namespace Logit

/-- One dense layer on the 4096 pair rows: `relu (x · W + bias)`. -/
def dense (W : FVec Ideal S256x256 .bf16) (bias : Vec Ideal S256 .f32) (x : FVec Ideal S4096x256 .f32) : FVec Ideal S4096x256 .f32 :=
  maximumf (addf (matmul dot_S4096x256_S256x256_S4096x256_1_0_0_1_n_n none (truncf .bf16 x bitsLt_bf16_f32) W (constant S4096x256 .f32 0x00000000#32))
      (broadcastTo S4096x256 (shapeCast S1x256 bias shapeCasts_S256_S1x256) broadcasts_S1x256_S4096x256))
    (broadcast S4096x256 (Scalar.ofBits .f32 0x00000000#32))

/-- The first hidden layer as 4096 pair rows: `relu (s + c)` re-laid row-major. -/
def rows0 (s c : FVec Ideal S32x128x256 .f32) : FVec Ideal S4096x256 .f32 :=
  shapeCast S4096x256 (maximumf (addf s c) (broadcast S32x128x256 (Scalar.ofBits .f32 0x00000000#32))) shapeCasts_S32x128x256_S4096x256

/-- The final projection: the rows back as pairs, times the weight vector, summed over features, plus the bias. -/
def head (w : FVec Ideal S256 .f32) (b : Ideal .f32) (y : FVec Ideal S4096x256 .f32) : FVec Ideal S32x128 .f32 :=
  addf (multiReduction .add [2] S32x128
      (mulf (shapeCast S32x128x256 y shapeCasts_S4096x256_S32x128x256)
        (broadcastTo S32x128x256 (shapeCast S1x1x256 w shapeCasts_S256_S1x1x256) broadcasts_S1x1x256_S32x128x256))
      0x00000000#32 reduces_S32x128x256_S32x128 (.inl rfl) rfl)
    (broadcast S32x128 b)

/-- The logit payload is the head over two dense layers over the first layer's rows. -/
theorem pay13_eq (v9 v10 : Vec Ideal S256 .f32) (v13 : Ideal .f32) (v17 v19 : FVec Ideal S256x256 .bf16) (v21 : FVec Ideal S256 .f32)
    (v28 v30 : FVec Ideal S32x128x256 .f32) :
    k1_pay13 v9 v10 v13 v17 v19 v21 v28 v30 = head v21 v13 (dense v19 v10 (dense v17 v9 (rows0 v28 v30))) := rfl

/-! ## A dense layer read at an entry -/

theorem dense_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem dense_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem dense_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem dense_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Row `r`, column `g` of a dense layer: `relu (Σ_f x[r,f] · W[f,g] + bias[g])`. -/
theorem dense_apply (W : FVec Ideal S256x256 .bf16) (bias : Vec Ideal S256 .f32) (x : FVec Ideal S4096x256 .f32) (r : Fin 4096) (g : Fin 256) :
    dense W bias x (ix2 r g) = max ((∑ f : Fin 256, x (ix2 r f) * W (ix2 f g)) + bias (ix1 g)) 0 := by
  unfold dense
  rw [maximumf_apply, addf_apply, broadcast_apply]
  refine congrArg₂ max (congrArg₂ (· + ·) ?_ ?_) Ideal.ofBits_zero_f32
  · simp only [matmul]
    rw [Ideal.matmul_constant_zero_apply, ← Equiv.sum_comp (contrEquiv1 dot_S4096x256_S256x256_S4096x256_1_0_0_1_n_n 256 rfl rfl).symm]
    refine Finset.sum_congr rfl fun k _ => ?_
    have hk := contrEquiv1_symm_val dot_S4096x256_S256x256_S4096x256_1_0_0_1_n_n 256 rfl rfl k
    have el : dot_S4096x256_S256x256_S4096x256_1_0_0_1_n_n.lhsIdx (ix2 r g) ((contrEquiv1 dot_S4096x256_S256x256_S4096x256_1_0_0_1_n_n 256 rfl rfl).symm k) = ix2 r k := funext fun a => Fin.ext (by
      match a with
      | ⟨0, _⟩ => exact dense_lhs_0 _ _
      | ⟨1, _⟩ => exact (dense_lhs_1 _ _).trans hk)
    have er : dot_S4096x256_S256x256_S4096x256_1_0_0_1_n_n.rhsIdx (ix2 r g) ((contrEquiv1 dot_S4096x256_S256x256_S4096x256_1_0_0_1_n_n 256 rfl rfl).symm k) = ix2 k g := funext fun a => Fin.ext (by
      match a with
      | ⟨0, _⟩ => exact (dense_rhs_0 _ _).trans hk
      | ⟨1, _⟩ => exact dense_rhs_1 _ _)
    rw [el, er]
    rfl
  · refine (broadcastTo_1b_ab_apply _ _ r g).trans ?_
    exact shapeCast_a_1a_apply bias _ 0 g

/-! ## The rows of the pair tile -/

/-- Pair `(i, j)` of the 32 × 128 tile is row `i · 128 + j` of the 4096. -/
def row (i : Fin 32) (j : Fin 128) : Fin 4096 := ⟨i.val * 128 + j.val, by have := i.isLt; have := j.isLt; omega⟩

/-- Row `(i, j)`, feature `f` of the first hidden layer: `relu (s[i,j,f] + c[i,j,f])`. -/
theorem rows0_apply (s c : FVec Ideal S32x128x256 .f32) (i : Fin 32) (j : Fin 128) (f : Fin 256) :
    rows0 s c (ix2 (row i j) f) = max (s (ix3 i j f) + c (ix3 i j f)) 0 := by
  unfold rows0
  refine (shapeCast_apply _ _ _ (ix3 i j f) ?_).trans ?_
  · rw [Shape.rowMajor_val_three, Shape.rowMajor_val_two]
    rfl
  · rw [maximumf_apply, addf_apply, broadcast_apply]
    exact congrArg (max _) Ideal.ofBits_zero_f32

/-- Pair `(i, j)` of the head: `Σ_h y[row,h] · w[h] + b`. -/
theorem head_apply (w : FVec Ideal S256 .f32) (b : Ideal .f32) (y : FVec Ideal S4096x256 .f32) (i : Fin 32) (j : Fin 128) :
    head w b y (ix2 i j) = (∑ h : Fin 256, y (ix2 (row i j) h) * w (ix1 h)) + b := by
  unfold head
  rw [addf_apply, broadcast_apply]
  refine congrArg (· + b) ?_
  refine (Ideal.multiReduction_add_single _ 0x00000000#32 reduces_S32x128x256_S32x128 (.inl rfl) rfl (ix2 i j)).trans ?_
  show ∑ h : Fin 256, _ = _
  refine Finset.sum_congr rfl fun h _ => ?_
  have e : reduces_S32x128x256_S32x128.lift (ix2 i j) h = ix3 i j h := funext fun c => Fin.ext (by
    match c with
    | ⟨0, _⟩ => rfl
    | ⟨1, _⟩ => rfl
    | ⟨2, _⟩ => rfl)
  rw [e, mulf_apply]
  refine congrArg₂ (· * ·) ?_ ?_
  · refine shapeCast_apply _ _ _ (ix2 (row i j) h) ?_
    rw [Shape.rowMajor_val_three, Shape.rowMajor_val_two]
    rfl
  · refine (broadcastTo_apply _ _ (ix3 i j h) (ix3 (0 : Fin 1) (0 : Fin 1) h) fun a => ?_).trans ?_
    · match a with
      | ⟨0, _⟩ => rfl
      | ⟨1, _⟩ => rfl
      | ⟨2, _⟩ => rfl
    · refine shapeCast_apply _ _ _ (ix1 h) ?_
      rw [Shape.rowMajor_val_one, Shape.rowMajor_val_three]
      show h.val = (0 * 1 + 0) * 256 + h.val
      omega

/-! ## The loaded blocks as the layers read them -/

/-- The sum of the query and key projections, broadcast over the tile: `x0[0,i,f] + x1[0,j,f]`. -/
theorem pay11_apply (x0 : Vec Ideal S1x32x256 .f32) (x1 : Vec Ideal S1x128x256 .f32) (i : Fin 32) (j : Fin 128) (f : Fin 256) :
    k1_pay11 x0 x1 (ix3 i j f) = x0 (ix3 0 i f) + x1 (ix3 0 j f) := by
  show broadcastTo S32x128x256 (shapeCast S32x1x256 (shapeCast S32x256 x0 shapeCasts_S1x32x256_S32x256) shapeCasts_S32x256_S32x1x256) broadcasts_S32x1x256_S32x128x256 (ix3 i j f)
      + broadcastTo S32x128x256 (shapeCast S1x128x256 (shapeCast S128x256 x1 shapeCasts_S1x128x256_S128x256) shapeCasts_S128x256_S1x128x256) broadcasts_S1x128x256_S32x128x256 (ix3 i j f) = _
  refine congrArg₂ (· + ·) ?_ ?_
  · refine (broadcastTo_apply _ _ (ix3 i j f) (ix3 i (0 : Fin 1) f) fun a => ?_).trans ?_
    · match a with
      | ⟨0, _⟩ => rfl
      | ⟨1, _⟩ => rfl
      | ⟨2, _⟩ => rfl
    · refine (shapeCast_apply _ _ _ (ix2 i f) ?_).trans (shapeCast_1ab_ab_apply x0 _ i f)
      rw [Shape.rowMajor_val_two, Shape.rowMajor_val_three]
      show i.val * 256 + f.val = (i.val * 1 + 0) * 256 + f.val
      omega
  · refine (broadcastTo_apply _ _ (ix3 i j f) (ix3 (0 : Fin 1) j f) fun a => ?_).trans ?_
    · match a with
      | ⟨0, _⟩ => rfl
      | ⟨1, _⟩ => rfl
      | ⟨2, _⟩ => rfl
    · exact (shapeCast_ab_1ab_apply _ _ 0 j f).trans (shapeCast_1ab_ab_apply x1 _ j f)

/-- A feature vector broadcast over the tile. -/
theorem pay12_apply (x4 : Vec Ideal S256 .f32) (i : Fin 32) (j : Fin 128) (f : Fin 256) :
    k1_pay12 x4 (ix3 i j f) = x4 (ix1 f) := by
  show broadcastTo S32x128x256 (shapeCast S1x1x256 x4 shapeCasts_S256_S1x1x256) broadcasts_S1x1x256_S32x128x256 (ix3 i j f) = _
  refine (broadcastTo_apply _ _ (ix3 i j f) (ix3 (0 : Fin 1) (0 : Fin 1) f) fun a => ?_).trans ?_
  · match a with
    | ⟨0, _⟩ => rfl
    | ⟨1, _⟩ => rfl
    | ⟨2, _⟩ => rfl
  · refine shapeCast_apply _ _ _ (ix1 f) ?_
    rw [Shape.rowMajor_val_one, Shape.rowMajor_val_three]
    show f.val = (0 * 1 + 0) * 256 + f.val
    omega

/-- The final weight column as a vector. -/
theorem pay9_apply (x9 : Vec Ideal S256x1 .f32) (h : Fin 256) : k1_pay9 x9 (ix1 h) = x9 (ix2 h 0) := by
  show shapeCast S256 x9 shapeCasts_S256x1_S256 (ix1 h) = _
  refine shapeCast_apply _ _ _ (ix2 h (0 : Fin 1)) ?_
  rw [Shape.rowMajor_val_two, Shape.rowMajor_val_one]
  show h.val * 1 + 0 = h.val
  omega

/-- The final bias, the one entry of its vector. -/
theorem pay5_eq (x13 : Vec Ideal S1 .f32) : k1_pay5 x13 = x13 (ix1 0) :=
  congrArg x13 (funext fun a => by match a with | ⟨0, _⟩ => rfl)

/-- The stored block is the tile with a unit batch axis in front. -/
theorem pay1_apply (v : FVec Ideal S32x128 .f32) (i : Fin 32) (j : Fin 128) : k1_pay1 v (ix3 0 i j) = v (ix2 i j) :=
  shapeCast_ab_1ab_apply v _ 0 i j

/-! ## The stored block is the importance logits of its loaded blocks -/

theorem logit_tile (x0 : Vec Ideal S1x32x256 .f32) (x1 : Vec Ideal S1x128x256 .f32) (x4 : Vec Ideal S256 .f32) (x5 : Vec Ideal S256x256 .f32)
    (x6 : Vec Ideal S256 .f32) (x7 : Vec Ideal S256x256 .f32) (x8 : Vec Ideal S256 .f32) (x9 : Vec Ideal S256x1 .f32) (x13 : Vec Ideal S1 .f32)
    (P : Spec.Arr3 2 256 256) (K : Spec.Arr3 2 512 256) (b0 : Spec.Arr1 256) (W1 : Spec.Arr2 256 256) (b1 : Spec.Arr1 256)
    (W2 : Spec.Arr2 256 256) (b2 : Spec.Arr1 256) (Wf : Spec.Arr2 256 1) (bf : Spec.Arr1 1)
    (b : Fin 2) (q : Fin 256) (k : Fin 512) (i : Fin 32) (j : Fin 128)
    (hP : ∀ f, x0 (ix3 0 i f) = P (ix3 b q f)) (hK : ∀ f, x1 (ix3 0 j f) = K (ix3 b k f))
    (h4 : ∀ f, x4 (ix1 f) = b0 (ix1 f)) (h5 : ∀ f g, x5 (ix2 f g) = W1 (ix2 f g)) (h6 : ∀ g, x6 (ix1 g) = b1 (ix1 g))
    (h7 : ∀ g h, x7 (ix2 g h) = W2 (ix2 g h)) (h8 : ∀ h, x8 (ix1 h) = b2 (ix1 h)) (h9 : ∀ h, x9 (ix2 h 0) = Wf (ix2 h 0))
    (h13 : x13 (ix1 0) = bf (ix1 0)) :
    k1_pay1 (k1_pay13 x6 x8 (k1_pay5 x13) (k1_pay7 x5) (k1_pay8 x7) (k1_pay9 x9) (k1_pay11 x0 x1) (k1_pay12 x4)) (ix3 0 i j)
      = Spec.logitAt P K b0 W1 b1 W2 b2 Wf bf b q k := by
  rw [pay1_apply, pay13_eq, head_apply]
  unfold Spec.logitAt
  refine congrArg₂ (· + ·) (Finset.sum_congr rfl fun h _ => congrArg₂ (· * ·) ?_ ((pay9_apply x9 h).trans (h9 h))) ((pay5_eq x13).trans h13)
  rw [dense_apply]
  unfold Spec.hid2
  refine congrArg₂ max (congrArg₂ (· + ·) (Finset.sum_congr rfl fun g _ => congrArg₂ (· * ·) ?_ (h7 g h)) (h8 h)) rfl
  rw [dense_apply]
  unfold Spec.hid1
  refine congrArg₂ max (congrArg₂ (· + ·) (Finset.sum_congr rfl fun f _ => congrArg₂ (· * ·) ?_ (h5 f g)) (h6 g)) rfl
  rw [rows0_apply, pay11_apply, pay12_apply, hP, hK, h4]
  rfl

/-! ## From the tiles to the array -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the grid: the query block moves with the output's batch and row block, the key block with its
    batch and column block, the weights and biases stay. -/
theorem idx_facts : ∀ t : Fin cfg1.N,
    win1_0.index t (0 : Fin 3) = win1_14.index t (0 : Fin 3) ∧ win1_0.index t (1 : Fin 3) = win1_14.index t (1 : Fin 3) ∧ win1_0.index t (2 : Fin 3) = 0
    ∧ win1_1.index t (0 : Fin 3) = win1_14.index t (0 : Fin 3) ∧ win1_1.index t (1 : Fin 3) = win1_14.index t (2 : Fin 3) ∧ win1_1.index t (2 : Fin 3) = 0
    ∧ win1_4.index t (0 : Fin 1) = 0 ∧ win1_5.index t (0 : Fin 2) = 0 ∧ win1_5.index t (1 : Fin 2) = 0
    ∧ win1_6.index t (0 : Fin 1) = 0 ∧ win1_7.index t (0 : Fin 2) = 0 ∧ win1_7.index t (1 : Fin 2) = 0
    ∧ win1_8.index t (0 : Fin 1) = 0 ∧ win1_9.index t (0 : Fin 2) = 0 ∧ win1_9.index t (1 : Fin 2) = 0
    ∧ win1_13.index t (0 : Fin 1) = 0 :=
  (by decide +kernel : ∀ t : Fin grid1.N, _)

/-- The array index under entry `(0, i, j)` of point `t`'s output block. -/
abbrev outIdx (t : Fin cfg1.N) (i : Fin 32) (j : Fin 128) : S2x256x512.Idx := ((cfg1.win 14).blk t).view.emb (ix3 (0 : Fin 1) i j)

/-- WHAT POINT `t` WRITES BACK is block `t` of the importance logits of the arrays as the region finds them. -/
theorem flushed_eq (c : Dev nD) (t : Fin cfg1.N) :
    (dat1 (F := Ideal) V c).flushed 14 t = ((cfg1.win 14).blk t).view.read (Elt Ideal)
      (Cert.Spec.logit (V c main_v4_0) (V c main_v4_1) (V c main_arg7) (V c main_arg8) (V c main_arg9) (V c main_arg10)
          (V c main_arg11) (V c main_arg12) (V c main_arg13)) := by
  show (cfg1.win 14).cut (grid1.coords t) ((dat1 (F := Ideal) V c).after 14 t) = _
  rw [after1_14]
  unfold out1_14
  rw [View.canon_unit_zero hz3]
  simp only [View.ld_unit_zero (S := S1x32x256) hz3, View.ld_unit_zero (S := S1x128x256) hz3, View.ld_unit_zero (S := S256) hz1,
    View.ld_unit_zero (S := S256x256) hz2, View.ld_unit_zero (S := S256x1) hz2, View.ld_unit_zero (S := S1) hz1]
  refine funext fun (y : S1x32x128.Idx) => ?_
  obtain ⟨u, i, j, rfl⟩ : ∃ (u : Fin 1) (i : Fin 32) (j : Fin 128), y = ix3 u i j := ⟨y 0, y 1, y 2, eq_ix3 y⟩
  obtain rfl : u = 0 := Subsingleton.elim u 0
  obtain ⟨f00, f01, f02, f10, f11, f12, f4, f50, f51, f6, f70, f71, f8, f90, f91, f13⟩ := idx_facts t
  refine (logit_tile (iblk1 V c 0 t) (iblk1 V c 1 t) (iblk1 V c 4 t) (iblk1 V c 5 t) (iblk1 V c 6 t) (iblk1 V c 7 t) (iblk1 V c 8 t)
    (iblk1 V c 9 t) (iblk1 V c 13 t)
    (V c main_v4_0) (V c main_v4_1) (V c main_arg7) (V c main_arg8) (V c main_arg9) (V c main_arg10) (V c main_arg11) (V c main_arg12) (V c main_arg13)
    ⟨(outIdx t i j 0).val, (outIdx t i j 0).isLt⟩ ⟨(outIdx t i j 1).val, (outIdx t i j 1).isLt⟩ ⟨(outIdx t i j 2).val, (outIdx t i j 2).isLt⟩ i j
    ?_ ?_ ?_ ?_ ?_ ?_ ?_ ?_ ?_).trans rfl
  · intro f
    have h : ((cfg1.win 0).blk t).view.emb (ix3 (0 : Fin 1) i f)
        = ix3 ⟨(outIdx t i j 0).val, (outIdx t i j 0).isLt⟩ ⟨(outIdx t i j 1).val, (outIdx t i j 1).isLt⟩ f := by
      funext a; apply Fin.ext
      match a with
      | ⟨0, _⟩ => show win1_0.index t (0 : Fin 3) * 1 + 1 * 0 = win1_14.index t (0 : Fin 3) * 1 + 1 * 0; omega
      | ⟨1, _⟩ => show win1_0.index t (1 : Fin 3) * 32 + 1 * i.val = win1_14.index t (1 : Fin 3) * 32 + 1 * i.val; omega
      | ⟨2, _⟩ => show win1_0.index t (2 : Fin 3) * 256 + 1 * f.val = f.val; omega
    exact congrArg (V c main_v4_0) h
  · intro f
    have h : ((cfg1.win 1).blk t).view.emb (ix3 (0 : Fin 1) j f)
        = ix3 ⟨(outIdx t i j 0).val, (outIdx t i j 0).isLt⟩ ⟨(outIdx t i j 2).val, (outIdx t i j 2).isLt⟩ f := by
      funext a; apply Fin.ext
      match a with
      | ⟨0, _⟩ => show win1_1.index t (0 : Fin 3) * 1 + 1 * 0 = win1_14.index t (0 : Fin 3) * 1 + 1 * 0; omega
      | ⟨1, _⟩ => show win1_1.index t (1 : Fin 3) * 128 + 1 * j.val = win1_14.index t (2 : Fin 3) * 128 + 1 * j.val; omega
      | ⟨2, _⟩ => show win1_1.index t (2 : Fin 3) * 256 + 1 * f.val = f.val; omega
    exact congrArg (V c main_v4_1) h
  · intro f
    have h : ((cfg1.win 4).blk t).view.emb (ix1 f) = ix1 f := by
      funext a; apply Fin.ext
      match a with
      | ⟨0, _⟩ => show win1_4.index t (0 : Fin 1) * 256 + 1 * f.val = f.val; omega
    exact congrArg (V c main_arg7) h
  · intro f g
    have h : ((cfg1.win 5).blk t).view.emb (ix2 f g) = ix2 f g := by
      funext a; apply Fin.ext
      match a with
      | ⟨0, _⟩ => show win1_5.index t (0 : Fin 2) * 256 + 1 * f.val = f.val; omega
      | ⟨1, _⟩ => show win1_5.index t (1 : Fin 2) * 256 + 1 * g.val = g.val; omega
    exact congrArg (V c main_arg8) h
  · intro g
    have h : ((cfg1.win 6).blk t).view.emb (ix1 g) = ix1 g := by
      funext a; apply Fin.ext
      match a with
      | ⟨0, _⟩ => show win1_6.index t (0 : Fin 1) * 256 + 1 * g.val = g.val; omega
    exact congrArg (V c main_arg9) h
  · intro g h'
    have h : ((cfg1.win 7).blk t).view.emb (ix2 g h') = ix2 g h' := by
      funext a; apply Fin.ext
      match a with
      | ⟨0, _⟩ => show win1_7.index t (0 : Fin 2) * 256 + 1 * g.val = g.val; omega
      | ⟨1, _⟩ => show win1_7.index t (1 : Fin 2) * 256 + 1 * h'.val = h'.val; omega
    exact congrArg (V c main_arg10) h
  · intro g
    have h : ((cfg1.win 8).blk t).view.emb (ix1 g) = ix1 g := by
      funext a; apply Fin.ext
      match a with
      | ⟨0, _⟩ => show win1_8.index t (0 : Fin 1) * 256 + 1 * g.val = g.val; omega
    exact congrArg (V c main_arg11) h
  · intro g
    have h : ((cfg1.win 9).blk t).view.emb (ix2 g (0 : Fin 1)) = ix2 g (0 : Fin 1) := by
      funext a; apply Fin.ext
      match a with
      | ⟨0, _⟩ => show win1_9.index t (0 : Fin 2) * 256 + 1 * g.val = g.val; omega
      | ⟨1, _⟩ => show win1_9.index t (1 : Fin 2) * 1 + 1 * 0 = 0; omega
    exact congrArg (V c main_arg12) h
  · have h : ((cfg1.win 13).blk t).view.emb (ix1 (0 : Fin 1)) = ix1 (0 : Fin 1) := by
      funext a; apply Fin.ext
      match a with
      | ⟨0, _⟩ => show win1_13.index t (0 : Fin 1) * 1 + 1 * 0 = 0; omega
    exact congrArg (V c main_arg13) h

/-- An index of the logits' array is in point `t`'s block iff each coordinate is in the block's range on its axis. -/
theorem mem_blk (t : Fin cfg1.N) (i : S2x256x512.Idx) :
    i ∈ ((cfg1.win 14).blk t).view.set ↔ ∀ a : Fin 3, win1_14.index t a * S1x32x128.size a ≤ (i a).val ∧ (i a).val < win1_14.index t a * S1x32x128.size a + S1x32x128.size a := by
  show i ∈ ((View.whole main_v5_0).slice (win1_14.rect t)).set ↔ _
  rw [View.set_slice_whole, Rect.mem_set_unit]
  exact Iff.rfl

/-- Every block of the array is SOME point's: batch, row block and column block are the grid's three coordinates. -/
theorem idx_onto : ∀ (q0 : Fin 2) (q1 : Fin 8) (q2 : Fin 4), ∃ t : Fin cfg1.N, win1_14.index t = ![q0.val, q1.val, q2.val] :=
  (by decide +kernel : ∀ (q0 : Fin 2) (q1 : Fin 8) (q2 : Fin 4), ∃ t : Fin grid1.N, win1_14.index t = ![q0.val, q1.val, q2.val])

/-- So the blocks cover the array: entry `(b, q, k)` lies in the block of batch `b`, row block `q / 32`, column block `k / 128`. -/
theorem cover (i : S2x256x512.Idx) : ∃ t : Fin cfg1.N, (cfg1.win 14).flush t = true ∧ i ∈ ((cfg1.win 14).blk t).view.set := by
  have hi0 : (i 0).val < 2 := (i 0).isLt
  have hi1 : (i 1).val < 256 := (i 1).isLt
  have hi2 : (i 2).val < 512 := (i 2).isLt
  obtain ⟨t, ht⟩ := idx_onto ⟨(i 0).val, by omega⟩ ⟨(i 1).val / 32, by omega⟩ ⟨(i 2).val / 128, by omega⟩
  have q0 : win1_14.index t (0 : Fin 3) = (i 0).val := congrFun ht 0
  have q1 : win1_14.index t (1 : Fin 3) = (i 1).val / 32 := congrFun ht 1
  have q2 : win1_14.index t (2 : Fin 3) = (i 2).val / 128 := congrFun ht 2
  refine ⟨t, flush1_14 t, ?_⟩
  rw [mem_blk]
  intro a
  match a with
  | ⟨0, _⟩ => show win1_14.index t (0 : Fin 3) * 1 ≤ (i 0).val ∧ (i 0).val < win1_14.index t (0 : Fin 3) * 1 + 1; omega
  | ⟨1, _⟩ => show win1_14.index t (1 : Fin 3) * 32 ≤ (i 1).val ∧ (i 1).val < win1_14.index t (1 : Fin 3) * 32 + 32; omega
  | ⟨2, _⟩ => show win1_14.index t (2 : Fin 3) * 128 ≤ (i 2).val ∧ (i 2).val < win1_14.index t (2 : Fin 3) * 128 + 128; omega

end Logit

/-- The importance logits. -/
theorem final1_14 (c : Dev nD) :
    (dat1 (F := Ideal) V c).arrAt 14 cfg1.N
      = Cert.Spec.logit (V c main_v4_0) (V c main_v4_1) (V c main_arg7) (V c main_arg8) (V c main_arg9) (V c main_arg10)
          (V c main_arg11) (V c main_arg12) (V c main_arg13) :=
  (dat1 (F := Ideal) V c).arrAt_eq_of_cover 14 _ (fun t _ => Logit.flushed_eq V c t) Logit.cover

end Cert.KernelIdeal.Val

end
-- ==== Proof.R1Var.lean ====
/-
  Region 1 (the pairwise network, a 32 × 128 tile of pairs per grid point): its second output array, after the
  region's run from the entry contents `V`, is the variance `Spec.variance` of the arrays its windows read.
-/
import proofs.«128512_j18940805775799_1_alg».proof.Proof.Gen.KernelIdeal.Frame
import proofs.«128512_j18940805775799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! ## The body's arithmetic, read at an index

Three layout facts (a block broadcast along an axis it does not have), the lane sum, the softplus, the loaded
blocks' unit axes, and then the stored value at (0, q, k) as the specification's term of the five blocks. -/

/-- A row block [32,256] seen as [32,1,256] and broadcast along the middle axis reads row q, lane h. -/
theorem bcastRow_apply (v : FVec Ideal S32x256 .f32) (q : Fin 32) (k : Fin 128) (h : Fin 256) :
    broadcastTo S32x128x256 (shapeCast S32x1x256 v shapeCasts_S32x256_S32x1x256) broadcasts_S32x1x256_S32x128x256 (ix3 q k h)
      = v (ix2 q h) := by
  refine (broadcastTo_apply _ _ (ix3 q k h) (ix3 q (0 : Fin 1) h) ?_).trans ?_
  · intro a
    match a with
    | ⟨0, _⟩ => rfl
    | ⟨1, _⟩ => rfl
    | ⟨2, _⟩ => rfl
  · refine shapeCast_apply _ _ _ (ix2 q h) ?_
    rw [Shape.rowMajor_val_two, Shape.rowMajor_val_three]
    show q.val * 256 + h.val = (q.val * 1 + 0) * 256 + h.val
    omega

/-- A column block [128,256] seen as [1,128,256] and broadcast along the leading axis reads row k, lane h. -/
theorem bcastCol_apply (v : FVec Ideal S128x256 .f32) (q : Fin 32) (k : Fin 128) (h : Fin 256) :
    broadcastTo S32x128x256 (shapeCast S1x128x256 v shapeCasts_S128x256_S1x128x256) broadcasts_S1x128x256_S32x128x256 (ix3 q k h)
      = v (ix2 k h) := by
  refine (broadcastTo_apply _ _ (ix3 q k h) (ix3 (0 : Fin 1) k h) ?_).trans ?_
  · intro a
    match a with
    | ⟨0, _⟩ => rfl
    | ⟨1, _⟩ => rfl
    | ⟨2, _⟩ => rfl
  · refine shapeCast_apply _ _ _ (ix2 k h) ?_
    rw [Shape.rowMajor_val_two, Shape.rowMajor_val_three]
    show k.val * 256 + h.val = (0 * 128 + k.val) * 256 + h.val
    omega

/-- A lane vector [256] seen as [1,1,256] and broadcast along both leading axes reads lane h. -/
theorem bcastLane_apply (v : FVec Ideal S256 .f32) (q : Fin 32) (k : Fin 128) (h : Fin 256) :
    broadcastTo S32x128x256 (shapeCast S1x1x256 v shapeCasts_S256_S1x1x256) broadcasts_S1x1x256_S32x128x256 (ix3 q k h)
      = v (ix1 h) := by
  refine (broadcastTo_apply _ _ (ix3 q k h) (ix3 (0 : Fin 1) (0 : Fin 1) h) ?_).trans ?_
  · intro a
    match a with
    | ⟨0, _⟩ => rfl
    | ⟨1, _⟩ => rfl
    | ⟨2, _⟩ => rfl
  · refine shapeCast_apply _ _ _ (ix1 h) ?_
    rw [Shape.rowMajor_val_one, Shape.rowMajor_val_three]
    show h.val = (0 * 1 + 0) * 256 + h.val
    omega

/-- Inserting lane h on the reduced axis of (q, k) gives (q, k, h). -/
theorem lift_ix (q : Fin 32) (k : Fin 128) (h : Fin 256) :
    reduces_S32x128x256_S32x128.lift (ix2 q k) h = ix3 q k h :=
  funext fun a => Fin.ext (match a with | ⟨0, _⟩ => rfl | ⟨1, _⟩ => rfl | ⟨2, _⟩ => rfl)

/-- The variance head before the softplus, off the loaded vectors at the pair (q, k):
    the lane sum of relu (v5[q,h] + v7[k,h] + v11[h]) * v23[h], plus the scalar v15. -/
theorem preVar_apply (v5 : FVec Ideal S32x256 .f32) (v7 : FVec Ideal S128x256 .f32) (v11 : Vec Ideal S256 .f32)
    (v15 : Ideal .f32) (v23 : FVec Ideal S256 .f32) (q : Fin 32) (k : Fin 128) :
    k1_pay14 v5 v7 v11 v15 v23 (ix2 q k)
      = (∑ h : Fin 256, max (v5 (ix2 q h) + v7 (ix2 k h) + v11 (ix1 h)) 0 * v23 (ix1 h)) + v15 := by
  unfold k1_pay14
  dsimp only
  refine congrArg (· + v15) ?_
  refine (Ideal.multiReduction_add_single _ _ _ _ _ (ix2 q k)).trans ?_
  refine Finset.sum_congr rfl fun (h : Fin 256) _ => ?_
  refine (congrArg _ (lift_ix q k h)).trans ?_
  show max (broadcastTo S32x128x256 (shapeCast S32x1x256 v5 shapeCasts_S32x256_S32x1x256) broadcasts_S32x1x256_S32x128x256 (ix3 q k h)
        + broadcastTo S32x128x256 (shapeCast S1x128x256 v7 shapeCasts_S128x256_S1x128x256) broadcasts_S1x128x256_S32x128x256 (ix3 q k h)
        + broadcastTo S32x128x256 (shapeCast S1x1x256 v11 shapeCasts_S256_S1x1x256) broadcasts_S1x1x256_S32x128x256 (ix3 q k h))
      (Ideal.ofBits .f32 0x00000000#32)
      * broadcastTo S32x128x256 (shapeCast S1x1x256 v23 shapeCasts_S256_S1x1x256) broadcasts_S1x1x256_S32x128x256 (ix3 q k h) = _
  rw [bcastRow_apply, bcastCol_apply, bcastLane_apply, bcastLane_apply, Ideal.ofBits_zero_f32]

/-- The stored block's payload at (0, q, k) is the softplus of the variance head at (q, k). -/
theorem varPay_apply (v5 : FVec Ideal S32x256 .f32) (v7 : FVec Ideal S128x256 .f32) (v11 : Vec Ideal S256 .f32)
    (v15 : Ideal .f32) (v23 : FVec Ideal S256 .f32) (q : Fin 32) (k : Fin 128) :
    k1_pay2 (k1_pay15 v5 v7 v11 v15 v23) (k1_pay17 v5 v7 v11 v15 v23) (k1_pay18 v5 v7 v11 v15 v23)
        (k1_pay19 v5 v7 v11 v15 v23) (k1_pay20 (F := Ideal)) (ix3 (0 : Fin 1) q k)
      = Cert.Spec.softplus (k1_pay14 v5 v7 v11 v15 v23 (ix2 q k)) := by
  unfold k1_pay2 k1_pay15 k1_pay17 k1_pay18 k1_pay19 k1_pay20 k1_pay16
  dsimp only
  refine (shapeCast_ab_1ab_apply _ _ (0 : Fin 1) q k).trans ?_
  generalize k1_pay14 v5 v7 v11 v15 v23 = X
  show Scalar.select (Ideal.cmp .one (X (ix2 q k) - Ideal.ofBits .f32 0x00000000#32) (X (ix2 q k) - Ideal.ofBits .f32 0x00000000#32))
      (X (ix2 q k) + Ideal.ofBits .f32 0x00000000#32)
      (max (X (ix2 q k)) (Ideal.ofBits .f32 0x00000000#32)
        + Ideal.log1p (Ideal.exp (Ideal.ofBits .f32 0x00000000#32
            - max (X (ix2 q k) - Ideal.ofBits .f32 0x00000000#32) (-(X (ix2 q k) - Ideal.ofBits .f32 0x00000000#32)))))
    = _
  generalize X (ix2 q k) = x
  rw [Ideal.ofBits_zero_f32]
  have hc : Ideal.cmp .one (x - 0) (x - 0) = 0#1 := by
    unfold Ideal.cmp
    simp
  rw [hc, select_zero, zero_sub]
  rfl

/-- The q block [1,32,256] with its unit axis dropped reads (0, q, h). -/
theorem qRows_apply (x : Vec Ideal S1x32x256 .f32) (q : Fin 32) (h : Fin 256) :
    k1_pay3 x (ix2 q h) = x (ix3 (0 : Fin 1) q h) := by
  unfold k1_pay3
  exact shapeCast_1ab_ab_apply _ _ q h

/-- The k block [1,128,256] with its unit axis dropped reads (0, k, h). -/
theorem kRows_apply (x : Vec Ideal S1x128x256 .f32) (k : Fin 128) (h : Fin 256) :
    k1_pay4 x (ix2 k h) = x (ix3 (0 : Fin 1) k h) := by
  unfold k1_pay4
  exact shapeCast_1ab_ab_apply _ _ k h

/-- The scalar extracted from a [1] vector is its one entry. -/
theorem scalar_apply (x : Vec Ideal S1 .f32) : k1_pay6 x = x (ix1 (0 : Fin 1)) := by
  unfold k1_pay6 extractAt
  exact congrArg x (funext fun a => match a with | ⟨0, _⟩ => rfl)

/-- The [256,1] column cast to [256] reads (h, 0). -/
theorem column_apply (x : Vec Ideal S256x1 .f32) (h : Fin 256) :
    k1_pay10 x (ix1 h) = x (ix2 h (0 : Fin 1)) := by
  unfold k1_pay10
  refine shapeCast_apply _ _ _ (ix2 h (0 : Fin 1)) ?_
  rw [Shape.rowMajor_val_one, Shape.rowMajor_val_two]
  show h.val * 1 + 0 = h.val
  omega

/-- What the body stores in window 15's buffer, at (0, q, k), off the five loaded blocks: the softplus of
    the lane sum of relu (x2[0,q,h] + x3[0,k,h] + x10[h]) * x11[h,0], plus x12[0]. -/
theorem stored_apply (x2 : Vec Ideal S1x32x256 .f32) (x3 : Vec Ideal S1x128x256 .f32) (x10 : Vec Ideal S256 .f32)
    (x11 : Vec Ideal S256x1 .f32) (x12 : Vec Ideal S1 .f32) (q : Fin 32) (k : Fin 128) :
    k1_pay2 (k1_pay15 (k1_pay3 x2) (k1_pay4 x3) x10 (k1_pay6 x12) (k1_pay10 x11))
        (k1_pay17 (k1_pay3 x2) (k1_pay4 x3) x10 (k1_pay6 x12) (k1_pay10 x11))
        (k1_pay18 (k1_pay3 x2) (k1_pay4 x3) x10 (k1_pay6 x12) (k1_pay10 x11))
        (k1_pay19 (k1_pay3 x2) (k1_pay4 x3) x10 (k1_pay6 x12) (k1_pay10 x11))
        (k1_pay20 (F := Ideal)) (ix3 (0 : Fin 1) q k)
      = Cert.Spec.softplus ((∑ h : Fin 256,
          max (x2 (ix3 (0 : Fin 1) q h) + x3 (ix3 (0 : Fin 1) k h) + x10 (ix1 h)) 0 * x11 (ix2 h (0 : Fin 1)))
          + x12 (ix1 (0 : Fin 1))) := by
  rw [varPay_apply, preVar_apply, scalar_apply]
  refine congrArg Cert.Spec.softplus (congrArg (· + x12 (ix1 (0 : Fin 1))) ?_)
  refine Finset.sum_congr rfl fun (h : Fin 256) _ => ?_
  rw [qRows_apply, kRows_apply, column_apply]

/-- When the five loaded blocks hold the arrays' entries for batch b, query row r and key row s, the value stored at
    (0, q, k) is the variance of the pair (r, s) of batch b. -/
theorem stored_eq_variance (P : Cert.Spec.Arr3 2 256 256) (K : Cert.Spec.Arr3 2 512 256) (cv : Cert.Spec.Arr1 256)
    (Wv : Cert.Spec.Arr2 256 1) (bv : Cert.Spec.Arr1 1)
    (x2 : Vec Ideal S1x32x256 .f32) (x3 : Vec Ideal S1x128x256 .f32) (x10 : Vec Ideal S256 .f32)
    (x11 : Vec Ideal S256x1 .f32) (x12 : Vec Ideal S1 .f32)
    (b : Fin 2) (q : Fin 32) (k : Fin 128) (r : Fin 256) (s : Fin 512)
    (h2 : ∀ h : Fin 256, x2 (ix3 (0 : Fin 1) q h) = P (ix3 b r h))
    (h3 : ∀ h : Fin 256, x3 (ix3 (0 : Fin 1) k h) = K (ix3 b s h))
    (h10 : ∀ h : Fin 256, x10 (ix1 h) = cv (ix1 h))
    (h11 : ∀ h : Fin 256, x11 (ix2 h (0 : Fin 1)) = Wv (ix2 h (0 : Fin 1)))
    (h12 : x12 (ix1 (0 : Fin 1)) = bv (ix1 (0 : Fin 1))) :
    k1_pay2 (k1_pay15 (k1_pay3 x2) (k1_pay4 x3) x10 (k1_pay6 x12) (k1_pay10 x11))
        (k1_pay17 (k1_pay3 x2) (k1_pay4 x3) x10 (k1_pay6 x12) (k1_pay10 x11))
        (k1_pay18 (k1_pay3 x2) (k1_pay4 x3) x10 (k1_pay6 x12) (k1_pay10 x11))
        (k1_pay19 (k1_pay3 x2) (k1_pay4 x3) x10 (k1_pay6 x12) (k1_pay10 x11))
        (k1_pay20 (F := Ideal)) (ix3 (0 : Fin 1) q k)
      = Cert.Spec.variance P K cv Wv bv (ix3 b r s) := by
  rw [stored_apply, h12]
  show _ = Cert.Spec.softplus ((∑ h : Fin 256, max (P (ix3 b r h) + K (ix3 b s h) + cv (ix1 h)) 0 * Wv (ix2 h (0 : Fin 1)))
      + bv (ix1 (0 : Fin 1)))
  refine congrArg Cert.Spec.softplus (congrArg (· + bv (ix1 (0 : Fin 1))) ?_)
  refine Finset.sum_congr rfl fun (h : Fin 256) _ => ?_
  rw [h2, h3, h10, h11]

-- the TensorCore's buffer contents when the region is entered, at the extended reals
variable (V : (c : Dev nD) → (b : Ref sig .tc) → Buf (Elt Ideal) ((c : Thread nD τ).loc b))

/-! ## From blocks to the array

The windows' block indices decided over the grid, what a point writes back, the cover, the array. -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The windows' block indices over the grid (2, 8, 4): the q block follows the output's batch and row block, the k
    block its batch and column block, the small operands are whole. -/
theorem index_facts : ∀ t : Fin cfg1.N,
    win1_2.index t (0 : Fin 3) = win1_15.index t (0 : Fin 3)
    ∧ win1_2.index t (1 : Fin 3) = win1_15.index t (1 : Fin 3)
    ∧ win1_2.index t (2 : Fin 3) = 0
    ∧ win1_3.index t (0 : Fin 3) = win1_15.index t (0 : Fin 3)
    ∧ win1_3.index t (1 : Fin 3) = win1_15.index t (2 : Fin 3)
    ∧ win1_3.index t (2 : Fin 3) = 0
    ∧ win1_10.index t (0 : Fin 1) = 0
    ∧ win1_11.index t (0 : Fin 2) = 0
    ∧ win1_11.index t (1 : Fin 2) = 0
    ∧ win1_12.index t (0 : Fin 1) = 0
    ∧ win1_15.index t (0 : Fin 3) ≤ 1
    ∧ win1_15.index t (1 : Fin 3) ≤ 7
    ∧ win1_15.index t (2 : Fin 3) ≤ 3 :=
  (by decide +kernel : ∀ t : Fin grid1.N, _)

/-- What point t writes back of window 15 is block t of the variance of the arrays the region finds. -/
theorem flushed_var (c : Dev nD) (t : Fin cfg1.N) :
    (dat1 (F := Ideal) V c).flushed 15 t = ((cfg1.win 15).blk t).view.read (Elt Ideal)
      (Cert.Spec.variance (V c main_v4_2) (V c main_v4_3) (V c main_arg15) (V c main_arg16) (V c main_arg17)) := by
  show (cfg1.win 15).cut (grid1.coords t) ((dat1 V c).after 15 t) = _
  rw [after1_15]
  unfold out1_15
  rw [View.canon_unit_zero zero3]
  simp only [View.ld_unit_zero (S := S1x32x256) zero3, View.ld_unit_zero (S := S1x128x256) zero3,
    View.ld_unit_zero (S := S256) zero1, View.ld_unit_zero (S := S256x1) zero2, View.ld_unit_zero (S := S1) zero1]
  obtain ⟨e0, e1, e2, e3, e4, e5, e6, e7, e8, e9, e10, e11, e12⟩ := index_facts t
  funext y
  have hu : (y 0).val < 1 := (y 0).isLt
  have hq : (y 1).val < 32 := (y 1).isLt
  have hk : (y 2).val < 128 := (y 2).isLt
  -- the pair inside the block, and the batch, query row and key row it is in the arrays
  obtain ⟨Q, hQ⟩ : ∃ Q : Fin 32, Q.val = (y 1).val := ⟨⟨(y 1).val, hq⟩, rfl⟩
  obtain ⟨Kk, hK⟩ : ∃ Kk : Fin 128, Kk.val = (y 2).val := ⟨⟨(y 2).val, hk⟩, rfl⟩
  obtain ⟨B, hB⟩ : ∃ B : Fin 2, B.val = win1_15.index t (0 : Fin 3) := ⟨⟨win1_15.index t (0 : Fin 3), by omega⟩, rfl⟩
  obtain ⟨R, hR⟩ : ∃ R : Fin 256, R.val = win1_15.index t (1 : Fin 3) * 32 + (y 1).val :=
    ⟨⟨win1_15.index t (1 : Fin 3) * 32 + (y 1).val, by omega⟩, rfl⟩
  obtain ⟨S, hS⟩ : ∃ S : Fin 512, S.val = win1_15.index t (2 : Fin 3) * 128 + (y 2).val :=
    ⟨⟨win1_15.index t (2 : Fin 3) * 128 + (y 2).val, by omega⟩, rfl⟩
  have hy : y = ix3 (0 : Fin 1) Q Kk :=
    funext fun a => Fin.ext (match a with
      | ⟨0, _⟩ => (by show (y 0).val = 0; omega)
      | ⟨1, _⟩ => hQ.symm
      | ⟨2, _⟩ => hK.symm)
  have hemb : ((cfg1.win 15).blk t).view.emb y = ix3 B R S :=
    funext fun a => Fin.ext (match a with
      | ⟨0, _⟩ => (by show win1_15.index t (0 : Fin 3) * 1 + 1 * (y 0).val = B.val; omega)
      | ⟨1, _⟩ => (by show win1_15.index t (1 : Fin 3) * 32 + 1 * (y 1).val = R.val; omega)
      | ⟨2, _⟩ => (by show win1_15.index t (2 : Fin 3) * 128 + 1 * (y 2).val = S.val; omega))
  -- each loaded block, read where the output block's rectangle says
  have h2 : ∀ h : Fin 256, iblk1 V c 2 t (ix3 (0 : Fin 1) Q h) = V c main_v4_2 (ix3 B R h) := fun h => by
    show V c main_v4_2 (((cfg1.win 2).blk t).view.emb (ix3 (0 : Fin 1) Q h)) = _
    refine congrArg (V c main_v4_2) (funext fun a => Fin.ext ?_)
    match a with
    | ⟨0, _⟩ => show win1_2.index t (0 : Fin 3) * 1 + 1 * 0 = B.val; omega
    | ⟨1, _⟩ => show win1_2.index t (1 : Fin 3) * 32 + 1 * Q.val = R.val; omega
    | ⟨2, _⟩ => show win1_2.index t (2 : Fin 3) * 256 + 1 * h.val = h.val; omega
  have h3 : ∀ h : Fin 256, iblk1 V c 3 t (ix3 (0 : Fin 1) Kk h) = V c main_v4_3 (ix3 B S h) := fun h => by
    show V c main_v4_3 (((cfg1.win 3).blk t).view.emb (ix3 (0 : Fin 1) Kk h)) = _
    refine congrArg (V c main_v4_3) (funext fun a => Fin.ext ?_)
    match a with
    | ⟨0, _⟩ => show win1_3.index t (0 : Fin 3) * 1 + 1 * 0 = B.val; omega
    | ⟨1, _⟩ => show win1_3.index t (1 : Fin 3) * 128 + 1 * Kk.val = S.val; omega
    | ⟨2, _⟩ => show win1_3.index t (2 : Fin 3) * 256 + 1 * h.val = h.val; omega
  have h10 : ∀ h : Fin 256, iblk1 V c 10 t (ix1 h) = V c main_arg15 (ix1 h) := fun h => by
    show V c main_arg15 (((cfg1.win 10).blk t).view.emb (ix1 h)) = _
    refine congrArg (V c main_arg15) (funext fun a => Fin.ext ?_)
    match a with
    | ⟨0, _⟩ => show win1_10.index t (0 : Fin 1) * 256 + 1 * h.val = h.val; omega
  have h11 : ∀ h : Fin 256, iblk1 V c 11 t (ix2 h (0 : Fin 1)) = V c main_arg16 (ix2 h (0 : Fin 1)) := fun h => by
    show V c main_arg16 (((cfg1.win 11).blk t).view.emb (ix2 h (0 : Fin 1))) = _
    refine congrArg (V c main_arg16) (funext fun a => Fin.ext ?_)
    match a with
    | ⟨0, _⟩ => show win1_11.index t (0 : Fin 2) * 256 + 1 * h.val = h.val; omega
    | ⟨1, _⟩ => show win1_11.index t (1 : Fin 2) * 1 + 1 * 0 = 0; omega
  have h12 : iblk1 V c 12 t (ix1 (0 : Fin 1)) = V c main_arg17 (ix1 (0 : Fin 1)) := by
    show V c main_arg17 (((cfg1.win 12).blk t).view.emb (ix1 (0 : Fin 1))) = _
    refine congrArg (V c main_arg17) (funext fun a => Fin.ext ?_)
    match a with
    | ⟨0, _⟩ => show win1_12.index t (0 : Fin 1) * 1 + 1 * 0 = 0; omega
  refine Eq.trans ?_ (congrArg (Cert.Spec.variance (V c main_v4_2) (V c main_v4_3) (V c main_arg15) (V c main_arg16)
    (V c main_arg17)) hemb.symm)
  refine (congrArg _ hy).trans ?_
  exact stored_eq_variance (V c main_v4_2) (V c main_v4_3) (V c main_arg15) (V c main_arg16) (V c main_arg17)
    (iblk1 V c 2 t) (iblk1 V c 3 t) (iblk1 V c 10 t) (iblk1 V c 11 t) (iblk1 V c 12 t) B Q Kk R S h2 h3 h10 h11 h12

/-- Every block of the output array is some point's. -/
theorem index_onto : ∀ (b : Fin 2) (qb : Fin 8) (kb : Fin 4), ∃ t : Fin cfg1.N, win1_15.index t = ![b.val, qb.val, kb.val] :=
  (by decide +kernel : ∀ (b : Fin 2) (qb : Fin 8) (kb : Fin 4), ∃ t : Fin grid1.N, win1_15.index t = ![b.val, qb.val, kb.val])

/-- An index of the output array is in point t's block iff each coordinate is in the block's range on its axis. -/
theorem mem_block (t : Fin cfg1.N) (i : S2x256x512.Idx) :
    i ∈ ((cfg1.win 15).blk t).view.set ↔ ∀ a : Fin 3, win1_15.index t a * S1x32x128.size a ≤ (i a).val
      ∧ (i a).val < win1_15.index t a * S1x32x128.size a + S1x32x128.size a := by
  show i ∈ ((View.whole main_v5_1).slice (win1_15.rect t)).set ↔ _
  rw [View.set_slice_whole, Rect.mem_set_unit]
  exact Iff.rfl

/-- The blocks cover the array: the pair (r, s) of batch b is in the block of row block r / 32 and column block s / 128. -/
theorem covered (i : S2x256x512.Idx) :
    ∃ t : Fin cfg1.N, (cfg1.win 15).flush t = true ∧ i ∈ ((cfg1.win 15).blk t).view.set := by
  have hi0 : (i 0).val < 2 := (i 0).isLt
  have hi1 : (i 1).val < 256 := (i 1).isLt
  have hi2 : (i 2).val < 512 := (i 2).isLt
  obtain ⟨t, ht⟩ := index_onto ⟨(i 0).val, hi0⟩ ⟨(i 1).val / 32, by omega⟩ ⟨(i 2).val / 128, by omega⟩
  have q0 : win1_15.index t (0 : Fin 3) = (i 0).val := congrFun ht 0
  have q1 : win1_15.index t (1 : Fin 3) = (i 1).val / 32 := congrFun ht 1
  have q2 : win1_15.index t (2 : Fin 3) = (i 2).val / 128 := congrFun ht 2
  refine ⟨t, flush1_15 t, ?_⟩
  rw [mem_block]
  intro a
  match a with
  | ⟨0, _⟩ => show win1_15.index t (0 : Fin 3) * 1 ≤ (i 0).val ∧ (i 0).val < win1_15.index t (0 : Fin 3) * 1 + 1; omega
  | ⟨1, _⟩ => show win1_15.index t (1 : Fin 3) * 32 ≤ (i 1).val ∧ (i 1).val < win1_15.index t (1 : Fin 3) * 32 + 32; omega
  | ⟨2, _⟩ => show win1_15.index t (2 : Fin 3) * 128 ≤ (i 2).val ∧ (i 2).val < win1_15.index t (2 : Fin 3) * 128 + 128; omega

/-- The variance. -/
theorem final1_15 (c : Dev nD) :
    (dat1 (F := Ideal) V c).arrAt 15 cfg1.N
      = Cert.Spec.variance (V c main_v4_2) (V c main_v4_3) (V c main_arg15) (V c main_arg16) (V c main_arg17) :=
  (dat1 (F := Ideal) V c).arrAt_eq_of_cover 15 _ (fun t _ => flushed_var V c t) (fun i => covered i)

end Cert.KernelIdeal.Val

end
-- ==== Proof.KVal.lean ====
/-
  The two result arrays of the kernel's run, as functions of the launch memory.

  The run's buffer contents are a fold through @main: the four weight halves are cut by host slices, region 0 leaves
  the four projections (`Spec.proj`) in its output arrays, region 1 reads them back through its first four windows
  and leaves the importance logits (`Spec.logit`) and the variance (`Spec.variance`). Every other array either region
  reads is an argument no operation writes, so the fold at it walks back to the launch memory.
-/
import proofs.«128512_j18940805775799_1_alg».proof.Proof.Gen.KernelIdeal.Frame
import proofs.«128512_j18940805775799_1_alg».proof.Proof.Spec
import proofs.«128512_j18940805775799_1_alg».proof.Proof.R0
import proofs.«128512_j18940805775799_1_alg».proof.Proof.R1Log
import proofs.«128512_j18940805775799_1_alg».proof.Proof.R1Var
import Idealize.ShloMosaic.Lib.StableHlo.Run

set_option maxRecDepth 16384

noncomputable section

namespace Cert.KernelIdeal.Gen

open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## Region 0's entry contents: the arguments as launched, the weight halves as the host slices cut them -/

theorem W1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))
theorem W1_arg1 (c : Dev nD) : W1 m ρ c (Proc.devRef .tc main_arg1) = m ((c : Thread nD τ).loc main_arg1) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1))
theorem W1_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2))
theorem W1_arg3 (c : Dev nD) : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3))
theorem W1_arg4 (c : Dev nD) : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))
theorem W1_arg5 (c : Dev nD) : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))
theorem W1_arg7 (c : Dev nD) : W1 m ρ c (Proc.devRef .tc main_arg7) = m ((c : Thread nD τ).loc main_arg7) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7))
theorem W1_arg8 (c : Dev nD) : W1 m ρ c (Proc.devRef .tc main_arg8) = m ((c : Thread nD τ).loc main_arg8) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8))
theorem W1_arg9 (c : Dev nD) : W1 m ρ c (Proc.devRef .tc main_arg9) = m ((c : Thread nD τ).loc main_arg9) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg9) = W0 m ρ c (Proc.devRef .tc main_arg9))
theorem W1_arg10 (c : Dev nD) : W1 m ρ c (Proc.devRef .tc main_arg10) = m ((c : Thread nD τ).loc main_arg10) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg10) = W0 m ρ c (Proc.devRef .tc main_arg10))
theorem W1_arg11 (c : Dev nD) : W1 m ρ c (Proc.devRef .tc main_arg11) = m ((c : Thread nD τ).loc main_arg11) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg11) = W0 m ρ c (Proc.devRef .tc main_arg11))
theorem W1_arg12 (c : Dev nD) : W1 m ρ c (Proc.devRef .tc main_arg12) = m ((c : Thread nD τ).loc main_arg12) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg12) = W0 m ρ c (Proc.devRef .tc main_arg12))
theorem W1_arg13 (c : Dev nD) : W1 m ρ c (Proc.devRef .tc main_arg13) = m ((c : Thread nD τ).loc main_arg13) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg13) = W0 m ρ c (Proc.devRef .tc main_arg13))
theorem W1_arg15 (c : Dev nD) : W1 m ρ c (Proc.devRef .tc main_arg15) = m ((c : Thread nD τ).loc main_arg15) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg15) = W0 m ρ c (Proc.devRef .tc main_arg15))
theorem W1_arg16 (c : Dev nD) : W1 m ρ c (Proc.devRef .tc main_arg16) = m ((c : Thread nD τ).loc main_arg16) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg16) = W0 m ρ c (Proc.devRef .tc main_arg16))
theorem W1_arg17 (c : Dev nD) : W1 m ρ c (Proc.devRef .tc main_arg17) = m ((c : Thread nD τ).loc main_arg17) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg17) = W0 m ρ c (Proc.devRef .tc main_arg17))
theorem W1_v0 (c : Dev nD) :
    W1 m ρ c (Proc.devRef .tc main_v0) = extractStridedSlice S256x256 ![0, 0] (m ((c : Thread nD τ).loc main_arg6)) slices_S512x256_S256x256_0_0 := by
  show StableHlo.after hostOps0 (W0 m ρ c) (Proc.devRef .tc main_v0) = _
  after_results
theorem W1_v1 (c : Dev nD) :
    W1 m ρ c (Proc.devRef .tc main_v1) = extractStridedSlice S256x256 ![256, 0] (m ((c : Thread nD τ).loc main_arg6)) slices_S512x256_S256x256_256_0 := by
  show StableHlo.after hostOps0 (W0 m ρ c) (Proc.devRef .tc main_v1) = _
  after_results
theorem W1_v2 (c : Dev nD) :
    W1 m ρ c (Proc.devRef .tc main_v2) = extractStridedSlice S256x256 ![0, 0] (m ((c : Thread nD τ).loc main_arg14)) slices_S512x256_S256x256_0_0 := by
  show StableHlo.after hostOps0 (W0 m ρ c) (Proc.devRef .tc main_v2) = _
  after_results
theorem W1_v3 (c : Dev nD) :
    W1 m ρ c (Proc.devRef .tc main_v3) = extractStridedSlice S256x256 ![256, 0] (m ((c : Thread nD τ).loc main_arg14)) slices_S512x256_S256x256_256_0 := by
  show StableHlo.after hostOps0 (W0 m ρ c) (Proc.devRef .tc main_v3) = _
  after_results

/-! ## Region 1's entry contents: region 0's four output arrays, and the arguments as launched -/

theorem W2_v4_0 (c : Dev nD) :
    W2 m ρ c (Proc.devRef .tc main_v4_0) = Cert.Spec.proj (m ((c : Thread nD τ).loc main_arg0)) (m ((c : Thread nD τ).loc main_arg2)) (m ((c : Thread nD τ).loc main_arg3)) (extractStridedSlice S256x256 ![0, 0] (m ((c : Thread nD τ).loc main_arg6)) slices_S512x256_S256x256_0_0) := by
  refine (W2_arr m ρ c 10).trans ?_
  rw [Cert.KernelIdeal.Val.final0_10 (V1 m ρ) c]
  show Cert.Spec.proj (W1 m ρ c (Proc.devRef .tc main_arg0)) (W1 m ρ c (Proc.devRef .tc main_arg2)) (W1 m ρ c (Proc.devRef .tc main_arg3)) (W1 m ρ c (Proc.devRef .tc main_v0)) = _
  rw [W1_arg0, W1_arg2, W1_arg3, W1_v0]
theorem W2_v4_1 (c : Dev nD) :
    W2 m ρ c (Proc.devRef .tc main_v4_1) = Cert.Spec.proj (m ((c : Thread nD τ).loc main_arg1)) (m ((c : Thread nD τ).loc main_arg4)) (m ((c : Thread nD τ).loc main_arg5)) (extractStridedSlice S256x256 ![256, 0] (m ((c : Thread nD τ).loc main_arg6)) slices_S512x256_S256x256_256_0) := by
  refine (W2_arr m ρ c 11).trans ?_
  rw [Cert.KernelIdeal.Val.final0_11 (V1 m ρ) c]
  show Cert.Spec.proj (W1 m ρ c (Proc.devRef .tc main_arg1)) (W1 m ρ c (Proc.devRef .tc main_arg4)) (W1 m ρ c (Proc.devRef .tc main_arg5)) (W1 m ρ c (Proc.devRef .tc main_v1)) = _
  rw [W1_arg1, W1_arg4, W1_arg5, W1_v1]
theorem W2_v4_2 (c : Dev nD) :
    W2 m ρ c (Proc.devRef .tc main_v4_2) = Cert.Spec.proj (m ((c : Thread nD τ).loc main_arg0)) (m ((c : Thread nD τ).loc main_arg2)) (m ((c : Thread nD τ).loc main_arg3)) (extractStridedSlice S256x256 ![0, 0] (m ((c : Thread nD τ).loc main_arg14)) slices_S512x256_S256x256_0_0) := by
  refine (W2_arr m ρ c 12).trans ?_
  rw [Cert.KernelIdeal.Val.final0_12 (V1 m ρ) c]
  show Cert.Spec.proj (W1 m ρ c (Proc.devRef .tc main_arg0)) (W1 m ρ c (Proc.devRef .tc main_arg2)) (W1 m ρ c (Proc.devRef .tc main_arg3)) (W1 m ρ c (Proc.devRef .tc main_v2)) = _
  rw [W1_arg0, W1_arg2, W1_arg3, W1_v2]
theorem W2_v4_3 (c : Dev nD) :
    W2 m ρ c (Proc.devRef .tc main_v4_3) = Cert.Spec.proj (m ((c : Thread nD τ).loc main_arg1)) (m ((c : Thread nD τ).loc main_arg4)) (m ((c : Thread nD τ).loc main_arg5)) (extractStridedSlice S256x256 ![256, 0] (m ((c : Thread nD τ).loc main_arg14)) slices_S512x256_S256x256_256_0) := by
  refine (W2_arr m ρ c 13).trans ?_
  rw [Cert.KernelIdeal.Val.final0_13 (V1 m ρ) c]
  show Cert.Spec.proj (W1 m ρ c (Proc.devRef .tc main_arg1)) (W1 m ρ c (Proc.devRef .tc main_arg4)) (W1 m ρ c (Proc.devRef .tc main_arg5)) (W1 m ρ c (Proc.devRef .tc main_v3)) = _
  rw [W1_arg1, W1_arg4, W1_arg5, W1_v3]
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)

/-! ## The two results -/

/-- The first result array after the run: the importance logits of the launch memory. -/
theorem W3_logits (c : Dev nD) :
    W3 m ρ c (Proc.devRef .tc main_v5_0)
      = Cert.Spec.logit (Cert.Spec.proj (m ((c : Thread nD τ).loc main_arg0)) (m ((c : Thread nD τ).loc main_arg2)) (m ((c : Thread nD τ).loc main_arg3)) (extractStridedSlice S256x256 ![0, 0] (m ((c : Thread nD τ).loc main_arg6)) slices_S512x256_S256x256_0_0))
          (Cert.Spec.proj (m ((c : Thread nD τ).loc main_arg1)) (m ((c : Thread nD τ).loc main_arg4)) (m ((c : Thread nD τ).loc main_arg5)) (extractStridedSlice S256x256 ![256, 0] (m ((c : Thread nD τ).loc main_arg6)) slices_S512x256_S256x256_256_0))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W3_arr m ρ c 14).trans ?_
  rw [Cert.KernelIdeal.Val.final1_14 (V2 m ρ) c]
  show Cert.Spec.logit (W2 m ρ c (Proc.devRef .tc main_v4_0)) (W2 m ρ c (Proc.devRef .tc main_v4_1)) (W2 m ρ c (Proc.devRef .tc main_arg7)) (W2 m ρ c (Proc.devRef .tc main_arg8)) (W2 m ρ c (Proc.devRef .tc main_arg9)) (W2 m ρ c (Proc.devRef .tc main_arg10)) (W2 m ρ c (Proc.devRef .tc main_arg11)) (W2 m ρ c (Proc.devRef .tc main_arg12)) (W2 m ρ c (Proc.devRef .tc main_arg13)) = _
  rw [W2_v4_0, W2_v4_1, W2_arg7, W2_arg8, W2_arg9, W2_arg10, W2_arg11, W2_arg12, W2_arg13]

/-- The second result array after the run: the variance of the launch memory. -/
theorem W3_variance (c : Dev nD) :
    W3 m ρ c (Proc.devRef .tc main_v5_1)
      = Cert.Spec.variance (Cert.Spec.proj (m ((c : Thread nD τ).loc main_arg0)) (m ((c : Thread nD τ).loc main_arg2)) (m ((c : Thread nD τ).loc main_arg3)) (extractStridedSlice S256x256 ![0, 0] (m ((c : Thread nD τ).loc main_arg14)) slices_S512x256_S256x256_0_0))
          (Cert.Spec.proj (m ((c : Thread nD τ).loc main_arg1)) (m ((c : Thread nD τ).loc main_arg4)) (m ((c : Thread nD τ).loc main_arg5)) (extractStridedSlice S256x256 ![256, 0] (m ((c : Thread nD τ).loc main_arg14)) slices_S512x256_S256x256_256_0))
          (m ((c : Thread nD τ).loc main_arg15)) (m ((c : Thread nD τ).loc main_arg16)) (m ((c : Thread nD τ).loc main_arg17)) := by
  refine (W3_arr m ρ c 15).trans ?_
  rw [Cert.KernelIdeal.Val.final1_15 (V2 m ρ) c]
  show Cert.Spec.variance (W2 m ρ c (Proc.devRef .tc main_v4_2)) (W2 m ρ c (Proc.devRef .tc main_v4_3)) (W2 m ρ c (Proc.devRef .tc main_arg15)) (W2 m ρ c (Proc.devRef .tc main_arg16)) (W2 m ρ c (Proc.devRef .tc main_arg17)) = _
  rw [W2_v4_2, W2_v4_3, W2_arg15, W2_arg16, W2_arg17]

end Cert.KernelIdeal.Gen

end
-- ==== Proof.RefEnc.lean ====
/-
  The reference's four projections (an encoder's `dot_general`, bias and relu, then the `dot_general` with a 256-row
  slice of a weight) are `Spec.proj` of their operands, the slice kept as the stage that cuts it.
-/
import proofs.«128512_j18940805775799_1_alg».proof.Proof.Gen.ReferenceIdeal.Read
import proofs.«128512_j18940805775799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

/-- The q-side encoder feature: the reference's `%4 = relu (%arg0 · %arg2 + broadcast %arg3)` at an index is
    `Spec.feat` at that index's coordinates. -/
theorem feat_q (x0 : (⟨S2x256x512, .f32⟩ : BufTy).Contents (Elt Ideal)) (x2 : (⟨S512x256, .f32⟩ : BufTy).Contents (Elt Ideal)) (x3 : (⟨S256, .f32⟩ : BufTy).Contents (Elt Ideal)) (j : S2x256x256.Idx) :
    val_main_v4 (F := Ideal) x0 x2 x3 j
      = Cert.Spec.feat x0 x2 x3 ⟨(j 0).val, (j 0).isLt⟩ ⟨(j 1).val, (j 1).isLt⟩ ⟨(j 2).val, (j 2).isLt⟩ := by
  rw [val_main_v4_apply, val_main_v3_apply, val_main_v0_apply, val_main_v2_apply, val_main_v1_apply,
    val_main_call0_v0_apply, val_main_call0_cst_apply]
  unfold Cert.Spec.feat
  rw [Ideal.maximumf_def, Ideal.addf_def, Ideal.ofBits_def, Ideal.ofBits_zero_f32]
  refine congrArg₂ max (congrArg₂ (· + ·) (Finset.sum_congr rfl fun k _ => ?_) (congrArg x3 (funext fun a => ?_))) rfl
  · refine congrArg₂ (· * ·) (congrArg x0 (funext fun a => ?_)) (congrArg x2 (funext fun a => ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

/-- The k-side encoder feature: `%9 = relu (%arg1 · %arg4 + broadcast %arg5)` at an index. -/
theorem feat_k (x1 : (⟨S2x512x512, .f32⟩ : BufTy).Contents (Elt Ideal)) (x4 : (⟨S512x256, .f32⟩ : BufTy).Contents (Elt Ideal)) (x5 : (⟨S256, .f32⟩ : BufTy).Contents (Elt Ideal)) (j : S2x512x256.Idx) :
    val_main_v9 (F := Ideal) x1 x4 x5 j
      = Cert.Spec.feat x1 x4 x5 ⟨(j 0).val, (j 0).isLt⟩ ⟨(j 1).val, (j 1).isLt⟩ ⟨(j 2).val, (j 2).isLt⟩ := by
  rw [val_main_v9_apply, val_main_v8_apply, val_main_v5_apply, val_main_v7_apply, val_main_v6_apply,
    val_main_call1_v0_apply, val_main_call1_cst_apply]
  unfold Cert.Spec.feat
  rw [Ideal.maximumf_def, Ideal.addf_def, Ideal.ofBits_def, Ideal.ofBits_zero_f32]
  refine congrArg₂ max (congrArg₂ (· + ·) (Finset.sum_congr rfl fun k _ => ?_) (congrArg x5 (funext fun a => ?_))) rfl
  · refine congrArg₂ (· * ·) (congrArg x1 (funext fun a => ?_)) (congrArg x4 (funext fun a => ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

/-- q-side importance projection: `%11`. -/
theorem enc_q (x0 : (⟨S2x256x512, .f32⟩ : BufTy).Contents (Elt Ideal)) (x2 : (⟨S512x256, .f32⟩ : BufTy).Contents (Elt Ideal)) (x3 : (⟨S256, .f32⟩ : BufTy).Contents (Elt Ideal)) (x6 : (⟨S512x256, .f32⟩ : BufTy).Contents (Elt Ideal)) :
    val_main_v11 (F := Ideal) x0 x2 x3 x6 = Cert.Spec.proj x0 x2 x3 (val_main_v10 (F := Ideal) x6) := by
  funext i
  rw [val_main_v11_apply]
  generalize val_main_v10 (F := Ideal) x6 = W
  show _ = Cert.Spec.projAt x0 x2 x3 W ⟨(i 0).val, (i 0).isLt⟩ ⟨(i 1).val, (i 1).isLt⟩ ⟨(i 2).val, (i 2).isLt⟩
  unfold Cert.Spec.projAt
  refine Finset.sum_congr rfl fun k _ => ?_
  rw [feat_q]
  refine congrArg₂ (· * ·) rfl (congrArg W (funext fun a => ?_))
  match a with
  | ⟨0, _⟩ => rfl
  | ⟨1, _⟩ => rfl

/-- k-side importance projection: `%13`. -/
theorem enc_k (x1 : (⟨S2x512x512, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) :
    val_main_v13 (F := Ideal) x1 x4 x5 x6 = Cert.Spec.proj x1 x4 x5 (val_main_v12 (F := Ideal) x6) := by
  funext i
  rw [val_main_v13_apply]
  generalize val_main_v12 (F := Ideal) x6 = W
  show _ = Cert.Spec.projAt x1 x4 x5 W ⟨(i 0).val, (i 0).isLt⟩ ⟨(i 1).val, (i 1).isLt⟩ ⟨(i 2).val, (i 2).isLt⟩
  unfold Cert.Spec.projAt
  refine Finset.sum_congr rfl fun k _ => ?_
  rw [feat_k]
  refine congrArg₂ (· * ·) rfl (congrArg W (funext fun a => ?_))
  match a with
  | ⟨0, _⟩ => rfl
  | ⟨1, _⟩ => rfl

/-- q-side variance projection: `%39`. -/
theorem enc_qv (x0 : (⟨S2x256x512, .f32⟩ : BufTy).Contents (Elt Ideal)) (x2 : (⟨S512x256, .f32⟩ : BufTy).Contents (Elt Ideal)) (x3 : (⟨S256, .f32⟩ : BufTy).Contents (Elt Ideal)) (x14 : (⟨S512x256, .f32⟩ : BufTy).Contents (Elt Ideal)) :
    val_main_v39 (F := Ideal) x0 x2 x3 x14 = Cert.Spec.proj x0 x2 x3 (val_main_v38 (F := Ideal) x14) := by
  funext i
  rw [val_main_v39_apply]
  generalize val_main_v38 (F := Ideal) x14 = W
  show _ = Cert.Spec.projAt x0 x2 x3 W ⟨(i 0).val, (i 0).isLt⟩ ⟨(i 1).val, (i 1).isLt⟩ ⟨(i 2).val, (i 2).isLt⟩
  unfold Cert.Spec.projAt
  refine Finset.sum_congr rfl fun k _ => ?_
  rw [feat_q]
  refine congrArg₂ (· * ·) rfl (congrArg W (funext fun a => ?_))
  match a with
  | ⟨0, _⟩ => rfl
  | ⟨1, _⟩ => rfl

/-- k-side variance projection: `%41`. -/
theorem enc_kv (x1 : (⟨S2x512x512, .f32⟩ : BufTy).Contents (Elt Ideal)) (x4 : (⟨S512x256, .f32⟩ : BufTy).Contents (Elt Ideal)) (x5 : (⟨S256, .f32⟩ : BufTy).Contents (Elt Ideal)) (x14 : (⟨S512x256, .f32⟩ : BufTy).Contents (Elt Ideal)) :
    val_main_v41 (F := Ideal) x1 x4 x5 x14 = Cert.Spec.proj x1 x4 x5 (val_main_v40 (F := Ideal) x14) := by
  funext i
  rw [val_main_v41_apply]
  generalize val_main_v40 (F := Ideal) x14 = W
  show _ = Cert.Spec.projAt x1 x4 x5 W ⟨(i 0).val, (i 0).isLt⟩ ⟨(i 1).val, (i 1).isLt⟩ ⟨(i 2).val, (i 2).isLt⟩
  unfold Cert.Spec.projAt
  refine Finset.sum_congr rfl fun k _ => ?_
  rw [feat_k]
  refine congrArg₂ (· * ·) rfl (congrArg W (funext fun a => ?_))
  match a with
  | ⟨0, _⟩ => rfl
  | ⟨1, _⟩ => rfl

end Cert.ReferenceIdeal.RefVal

end
-- ==== Proof.RefLog.lean ====
/-
  The reference's importance logits (`%37`) are `Spec.logit` of its two importance projections (`%11`, `%13`) and the
  pairwise network's weights.
-/
import proofs.«128512_j18940805775799_1_alg».proof.Proof.Gen.ReferenceIdeal.Read
import proofs.«128512_j18940805775799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

/-- The first hidden layer at an index of the rank-4 array: `%22` is `relu (P[b,q,f] + K[b,k,f] + b0[f])`. -/
theorem hid0_at (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (i : S2x256x512x256.Idx) :
    val_main_v22 (F := Ideal) x0 x1 x2 x3 x4 x5 x6 x7 i
      = Cert.Spec.hid0 (val_main_v11 (F := Ideal) x0 x2 x3 x6) (val_main_v13 (F := Ideal) x1 x4 x5 x6) x7
          ⟨(i 0).val, (i 0).isLt⟩ ⟨(i 1).val, (i 1).isLt⟩ ⟨(i 2).val, (i 2).isLt⟩ ⟨(i 3).val, (i 3).isLt⟩ := by
  rw [val_main_v22_apply, val_main_v21_apply, val_main_v18_apply, val_main_v16_apply, val_main_v14_apply,
    val_main_v17_apply, val_main_v15_apply, val_main_v20_apply, val_main_v19_apply,
    val_main_call2_v0_apply, val_main_call2_cst_apply]
  generalize val_main_v11 (F := Ideal) x0 x2 x3 x6 = P
  generalize val_main_v13 (F := Ideal) x1 x4 x5 x6 = K
  -- the query row is read at (b, q, f), the key row at (b, k, f), the bias at f
  have eP : idx_main_v14 (idx_main_v16 i)
      = ix3 (⟨(i 0).val, (i 0).isLt⟩ : Fin 2) (⟨(i 1).val, (i 1).isLt⟩ : Fin 256) (⟨(i 3).val, (i 3).isLt⟩ : Fin 256) :=
    funext fun a => Fin.ext (by match a with | ⟨0, _⟩ => rfl | ⟨1, _⟩ => rfl | ⟨2, _⟩ => rfl)
  have eK : idx_main_v15 (idx_main_v17 i)
      = ix3 (⟨(i 0).val, (i 0).isLt⟩ : Fin 2) (⟨(i 2).val, (i 2).isLt⟩ : Fin 512) (⟨(i 3).val, (i 3).isLt⟩ : Fin 256) :=
    funext fun a => Fin.ext (by match a with | ⟨0, _⟩ => rfl | ⟨1, _⟩ => rfl | ⟨2, _⟩ => rfl)
  have eb : idx_main_v19 (idx_main_v20 i) = ix1 (⟨(i 3).val, (i 3).isLt⟩ : Fin 256) :=
    funext fun a => Fin.ext (by match a with | ⟨0, _⟩ => rfl)
  rw [eP, eK, eb, Ideal.ofBits_def, Ideal.ofBits_zero_f32, Ideal.maximumf_def, Ideal.addf_def, Ideal.addf_def]
  rfl

/-- The second hidden layer at an index: `%27` is `relu (Σ_f h0[f] · W1[f,g] + b1[g])`, the sum of `%23` read over the last axis of `%22`. -/
theorem hid1_at (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (i : S2x256x512x256.Idx) :
    val_main_v27 (F := Ideal) x0 x1 x2 x3 x4 x5 x6 x7 x8 x9 i
      = Cert.Spec.hid1 (val_main_v11 (F := Ideal) x0 x2 x3 x6) (val_main_v13 (F := Ideal) x1 x4 x5 x6) x7 x8 x9
          ⟨(i 0).val, (i 0).isLt⟩ ⟨(i 1).val, (i 1).isLt⟩ ⟨(i 2).val, (i 2).isLt⟩ ⟨(i 3).val, (i 3).isLt⟩ := by
  rw [val_main_v27_apply, val_main_v26_apply, val_main_v23_apply, val_main_v25_apply, val_main_v24_apply,
    val_main_call3_v0_apply, val_main_call3_cst_apply]
  have eb : idx_main_v24 (idx_main_v25 i) = ix1 (⟨(i 3).val, (i 3).isLt⟩ : Fin 256) :=
    funext fun a => Fin.ext (by match a with | ⟨0, _⟩ => rfl)
  -- each term of the contraction: the first layer at (b, q, k, f) times W1[f, g]
  have hs : (∑ f : Fin 256, (val_main_v22 (F := Ideal) x0 x1 x2 x3 x4 x5 x6 x7) (lidx_main_v23 i f) * x8 (ridx_main_v23 i f))
      = ∑ f : Fin 256, Cert.Spec.hid0 (val_main_v11 (F := Ideal) x0 x2 x3 x6) (val_main_v13 (F := Ideal) x1 x4 x5 x6) x7
          ⟨(i 0).val, (i 0).isLt⟩ ⟨(i 1).val, (i 1).isLt⟩ ⟨(i 2).val, (i 2).isLt⟩ f
            * x8 (ix2 f (⟨(i 3).val, (i 3).isLt⟩ : Fin 256)) :=
    Finset.sum_congr rfl fun f _ => by
      have er : ridx_main_v23 i f = ix2 f (⟨(i 3).val, (i 3).isLt⟩ : Fin 256) :=
        funext fun a => Fin.ext (by match a with | ⟨0, _⟩ => rfl | ⟨1, _⟩ => rfl)
      rw [hid0_at, er]
  rw [hs, eb, Ideal.ofBits_def, Ideal.ofBits_zero_f32, Ideal.maximumf_def, Ideal.addf_def]
  rfl

/-- The third hidden layer at an index: `%32` is `relu (Σ_g h1[g] · W2[g,h] + b2[h])`. -/
theorem hid2_at (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (i : S2x256x512x256.Idx) :
    val_main_v32 (F := Ideal) x0 x1 x2 x3 x4 x5 x6 x7 x8 x9 x10 x11 i
      = Cert.Spec.hid2 (val_main_v11 (F := Ideal) x0 x2 x3 x6) (val_main_v13 (F := Ideal) x1 x4 x5 x6) x7 x8 x9 x10 x11
          ⟨(i 0).val, (i 0).isLt⟩ ⟨(i 1).val, (i 1).isLt⟩ ⟨(i 2).val, (i 2).isLt⟩ ⟨(i 3).val, (i 3).isLt⟩ := by
  rw [val_main_v32_apply, val_main_v31_apply, val_main_v28_apply, val_main_v30_apply, val_main_v29_apply,
    val_main_call4_v0_apply, val_main_call4_cst_apply]
  have eb : idx_main_v29 (idx_main_v30 i) = ix1 (⟨(i 3).val, (i 3).isLt⟩ : Fin 256) :=
    funext fun a => Fin.ext (by match a with | ⟨0, _⟩ => rfl)
  -- each term of the contraction: the second layer at (b, q, k, g) times W2[g, h]
  have hs : (∑ g : Fin 256, (val_main_v27 (F := Ideal) x0 x1 x2 x3 x4 x5 x6 x7 x8 x9) (lidx_main_v28 i g) * x10 (ridx_main_v28 i g))
      = ∑ g : Fin 256, Cert.Spec.hid1 (val_main_v11 (F := Ideal) x0 x2 x3 x6) (val_main_v13 (F := Ideal) x1 x4 x5 x6) x7 x8 x9
          ⟨(i 0).val, (i 0).isLt⟩ ⟨(i 1).val, (i 1).isLt⟩ ⟨(i 2).val, (i 2).isLt⟩ g
            * x10 (ix2 g (⟨(i 3).val, (i 3).isLt⟩ : Fin 256)) :=
    Finset.sum_congr rfl fun g _ => by
      have er : ridx_main_v28 i g = ix2 g (⟨(i 3).val, (i 3).isLt⟩ : Fin 256) :=
        funext fun a => Fin.ext (by match a with | ⟨0, _⟩ => rfl | ⟨1, _⟩ => rfl)
      rw [hid1_at, er]
  rw [hs, eb, Ideal.ofBits_def, Ideal.ofBits_zero_f32, Ideal.maximumf_def, Ideal.addf_def]
  rfl

/-- The importance logits: `%37`. -/
theorem ref_logit (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal))
    (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x1, .f32⟩ : BufTy).Contents (Elt Ideal)) (x13 : (⟨S1, .f32⟩ : BufTy).Contents (Elt Ideal)) :
    val_main_v37 (F := Ideal) x0 x1 x2 x3 x4 x5 x6 x7 x8 x9 x10 x11 x12 x13
      = Cert.Spec.logit (val_main_v11 (F := Ideal) x0 x2 x3 x6) (val_main_v13 (F := Ideal) x1 x4 x5 x6) x7 x8 x9 x10 x11 x12 x13 := by
  funext i
  rw [val_main_v37_apply, val_main_v36_apply, val_main_v33_apply, val_main_v35_apply, val_main_v34_apply]
  -- the reshape drops the trailing unit axis: the row-major position of (b, q, k) splits back into (b, q, k, 0)
  have h0 : (i 0).val < 2 := (i 0).isLt
  have h1 : (i 1).val < 256 := (i 1).isLt
  have h2 : (i 2).val < 512 := (i 2).isLt
  have e0 : (((i 0).val * 256 + (i 1).val) * 512 + (i 2).val) / 131072 = (i 0).val := by omega
  have e1 : (((i 0).val * 256 + (i 1).val) * 512 + (i 2).val) / 512 % 256 = (i 1).val := by omega
  have e2 : (((i 0).val * 256 + (i 1).val) * 512 + (i 2).val) / 1 % 512 = (i 2).val := by omega
  have eb : idx_main_v34 (idx_main_v35 (idx_main_v37 i)) = ix1 (0 : Fin 1) :=
    funext fun a => Fin.ext (by match a with | ⟨0, _⟩ => rfl)
  -- each term of the contraction: the third layer at (b, q, k, h) times Wf[h, 0]
  have hs : (∑ h : Fin 256, (val_main_v32 (F := Ideal) x0 x1 x2 x3 x4 x5 x6 x7 x8 x9 x10 x11) (lidx_main_v33 (idx_main_v37 i) h)
        * x12 (ridx_main_v33 (idx_main_v37 i) h))
      = ∑ h : Fin 256, Cert.Spec.hid2 (val_main_v11 (F := Ideal) x0 x2 x3 x6) (val_main_v13 (F := Ideal) x1 x4 x5 x6) x7 x8 x9 x10 x11
          ⟨(i 0).val, (i 0).isLt⟩ ⟨(i 1).val, (i 1).isLt⟩ ⟨(i 2).val, (i 2).isLt⟩ h
            * x12 (ix2 h (0 : Fin 1)) :=
    Finset.sum_congr rfl fun h _ => by
      have er : ridx_main_v33 (idx_main_v37 i) h = ix2 h (0 : Fin 1) :=
        funext fun a => Fin.ext (by match a with | ⟨0, _⟩ => rfl | ⟨1, _⟩ => rfl)
      have c0 : (⟨(lidx_main_v33 (idx_main_v37 i) h 0).val, (lidx_main_v33 (idx_main_v37 i) h 0).isLt⟩ : Fin 2)
          = ⟨(i 0).val, (i 0).isLt⟩ := Fin.ext e0
      have c1 : (⟨(lidx_main_v33 (idx_main_v37 i) h 1).val, (lidx_main_v33 (idx_main_v37 i) h 1).isLt⟩ : Fin 256)
          = ⟨(i 1).val, (i 1).isLt⟩ := Fin.ext e1
      have c2 : (⟨(lidx_main_v33 (idx_main_v37 i) h 2).val, (lidx_main_v33 (idx_main_v37 i) h 2).isLt⟩ : Fin 512)
          = ⟨(i 2).val, (i 2).isLt⟩ := Fin.ext e2
      rw [hid2_at, er, c0, c1, c2]
  rw [hs, eb, Ideal.addf_def]
  rfl

end Cert.ReferenceIdeal.RefVal

end
-- ==== Proof.RefVar.lean ====
/-
  The reference's variance (`%56`) is `Spec.variance` of its two variance projections (`%39`, `%41`) and the variance
  head's weights.
-/
import proofs.«128512_j18940805775799_1_alg».proof.Proof.Gen.ReferenceIdeal.Read
import proofs.«128512_j18940805775799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

/-- No extended real differs from itself: a select on `compare NE y y` is its second branch. -/
theorem select_une_self {α : Type} (y : Ideal .f32) (a c : α) :
    Scalar.select (FloatOps.cmpf .une y y) a c = c := by
  rw [Ideal.cmpf_def]
  simp [Scalar.select, Ideal.cmp]

/-- The flat position of `(b, q, k)` in `[2, 256, 512]`, read back in `[2, 256, 512, 1]`, is `(b, q, k, 0)`. -/
theorem idx55_ix3 (b : Fin 2) (q : Fin 256) (k : Fin 512) :
    idx_main_v55 (ix3 b q k) = ix4 b q k (0 : Fin 1) := by
  funext a
  apply Fin.ext
  have hb := b.isLt
  have hq := q.isLt
  have hk := k.isLt
  match a with
  | ⟨0, _⟩ => show ((b.val * 256 + q.val) * 512 + k.val) / 131072 = b.val; omega
  | ⟨1, _⟩ => show ((b.val * 256 + q.val) * 512 + k.val) / 512 % 256 = q.val; omega
  | ⟨2, _⟩ => show ((b.val * 256 + q.val) * 512 + k.val) / 1 % 512 = k.val; omega
  | ⟨3, _⟩ => rfl

/-- The variance head's hidden layer (`%50`) at `(b, q, k, h)`: the two projections' rows `q` and `k` of batch `b`
    and the bias at feature `h`, added and clamped at zero. -/
theorem v50_at (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x14 : (⟨S512x256, .f32⟩ : BufTy).Contents (Elt Ideal)) (x15 : (⟨S256, .f32⟩ : BufTy).Contents (Elt Ideal))
    (b : Fin 2) (q : Fin 256) (k : Fin 512) (h : Fin 256) :
    val_main_v50 (F := Ideal) x0 x1 x2 x3 x4 x5 x14 x15 (ix4 b q k h)
      = Cert.Spec.hid0 (val_main_v39 (F := Ideal) x0 x2 x3 x14) (val_main_v41 (F := Ideal) x1 x4 x5 x14) x15 b q k h := by
  rw [val_main_v50_apply, val_main_v49_apply, val_main_v46_apply, val_main_v44_apply, val_main_v42_apply,
    val_main_v45_apply, val_main_v43_apply, val_main_v48_apply, val_main_v47_apply, val_main_call5_v0_apply,
    val_main_call5_cst_apply]
  generalize val_main_v39 (F := Ideal) x0 x2 x3 x14 = P
  generalize val_main_v41 (F := Ideal) x1 x4 x5 x14 = K
  have eP : idx_main_v42 (idx_main_v44 (ix4 b q k h)) = ix3 b q h :=
    funext fun a => Fin.ext (by match a with | ⟨0, _⟩ => rfl | ⟨1, _⟩ => rfl | ⟨2, _⟩ => rfl)
  have eK : idx_main_v43 (idx_main_v45 (ix4 b q k h)) = ix3 b k h :=
    funext fun a => Fin.ext (by match a with | ⟨0, _⟩ => rfl | ⟨1, _⟩ => rfl | ⟨2, _⟩ => rfl)
  have ec : idx_main_v47 (idx_main_v48 (ix4 b q k h)) = ix1 h :=
    funext fun a => Fin.ext (by match a with | ⟨0, _⟩ => rfl)
  rw [eP, eK, ec, Ideal.maximumf_def, Ideal.addf_def, Ideal.addf_def, Ideal.ofBits_def, Ideal.ofBits_zero_f32]
  rfl

/-- The variance head before the softplus (`%55`) at `(b, q, k)`. -/
theorem v55_at (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x14 : (⟨S512x256, .f32⟩ : BufTy).Contents (Elt Ideal)) (x15 : (⟨S256, .f32⟩ : BufTy).Contents (Elt Ideal)) (x16 : (⟨S256x1, .f32⟩ : BufTy).Contents (Elt Ideal)) (x17 : (⟨S1, .f32⟩ : BufTy).Contents (Elt Ideal))
    (b : Fin 2) (q : Fin 256) (k : Fin 512) :
    val_main_v55 (F := Ideal) x0 x1 x2 x3 x4 x5 x14 x15 x16 x17 (ix3 b q k)
      = Cert.Spec.preVarAt (val_main_v39 (F := Ideal) x0 x2 x3 x14) (val_main_v41 (F := Ideal) x1 x4 x5 x14) x15 x16 x17 b q k := by
  rw [val_main_v55_apply, idx55_ix3, val_main_v54_apply, val_main_v51_apply, val_main_v53_apply, val_main_v52_apply,
    Ideal.addf_def]
  unfold Cert.Spec.preVarAt
  have eb : idx_main_v52 (idx_main_v53 (ix4 b q k (0 : Fin 1))) = ix1 (0 : Fin 1) :=
    funext fun a => Fin.ext (by match a with | ⟨0, _⟩ => rfl)
  rw [eb]
  refine congrArg (· + x17 (ix1 (0 : Fin 1))) (Finset.sum_congr rfl fun h _ => ?_)
  have el : lidx_main_v51 (ix4 b q k (0 : Fin 1)) h = ix4 b q k h :=
    funext fun a => Fin.ext (by match a with | ⟨0, _⟩ => rfl | ⟨1, _⟩ => rfl | ⟨2, _⟩ => rfl | ⟨3, _⟩ => rfl)
  have er : ridx_main_v51 (ix4 b q k (0 : Fin 1)) h = ix2 h (0 : Fin 1) :=
    funext fun a => Fin.ext (by match a with | ⟨0, _⟩ => rfl | ⟨1, _⟩ => rfl)
  rw [el, er, v50_at]

/-- The variance: `%56`. -/
theorem ref_var (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal))
    (x4 : (⟨S512x256, .f32⟩ : BufTy).Contents (Elt Ideal)) (x5 : (⟨S256, .f32⟩ : BufTy).Contents (Elt Ideal)) (x14 : (⟨S512x256, .f32⟩ : BufTy).Contents (Elt Ideal)) (x15 : (⟨S256, .f32⟩ : BufTy).Contents (Elt Ideal)) (x16 : (⟨S256x1, .f32⟩ : BufTy).Contents (Elt Ideal)) (x17 : (⟨S1, .f32⟩ : BufTy).Contents (Elt Ideal)) :
    val_main_v56 (F := Ideal) x0 x1 x2 x3 x4 x5 x14 x15 x16 x17
      = Cert.Spec.variance (val_main_v39 (F := Ideal) x0 x2 x3 x14) (val_main_v41 (F := Ideal) x1 x4 x5 x14) x15 x16 x17 := by
  funext i
  obtain ⟨b, q, k, rfl⟩ : ∃ (b : Fin 2) (q : Fin 256) (k : Fin 512), i = ix3 b q k := ⟨i 0, i 1, i 2, eq_ix3 i⟩
  rw [val_main_v56_apply, val_main_call6_v4_apply, select_une_self, val_main_call6_v11_apply, val_main_call6_v1_apply,
    val_main_call6_v10_apply, val_main_call6_v9_apply, val_main_call6_v8_apply, val_main_call6_v7_apply,
    val_main_call6_v3_apply, val_main_call6_v2_apply, val_main_call6_v0_apply, val_main_call6_cst_apply,
    v55_at]
  generalize val_main_v39 (F := Ideal) x0 x2 x3 x14 = P
  generalize val_main_v41 (F := Ideal) x1 x4 x5 x14 = K
  show _ = Cert.Spec.softplus (Cert.Spec.preVarAt P K x15 x16 x17 b q k)
  generalize Cert.Spec.preVarAt P K x15 x16 x17 b q k = z
  unfold Cert.Spec.softplus
  rw [Ideal.addf_def, Ideal.maximumf_def, Ideal.hostUnary_log1p_def, Ideal.hostUnary_exp_def, Ideal.hostNegf_def,
    Ideal.negf_def, Ideal.hostAbsf_def, Ideal.absf_def, Ideal.subf_def, Ideal.ofBits_def, Ideal.ofBits_zero_f32]

end Cert.ReferenceIdeal.RefVal

end
-- ==== Proof.RefRes.lean ====
/-
  The reference's two results as functions of its launch memory: the importance logits are `Spec.logit` of the two
  importance projections, the variance `Spec.variance` of the two variance projections, each projection `Spec.proj` of an
  input, an encoder's weight and bias, and the 256-row half of a weight that the reference's own slice cuts.
-/
import proofs.«128512_j18940805775799_1_alg».proof.Proof.Gen.ReferenceIdeal.Read
import proofs.«128512_j18940805775799_1_alg».proof.Proof.Spec
import proofs.«128512_j18940805775799_1_alg».proof.Proof.RefEnc
import proofs.«128512_j18940805775799_1_alg».proof.Proof.RefLog
import proofs.«128512_j18940805775799_1_alg».proof.Proof.RefVar

set_option maxRecDepth 16384

noncomputable section

namespace Cert.ReferenceIdeal.RefVal

open Idealize.ShloMosaic Idealize.ShloMosaic.TcCoe Idealize.SL.Sem
open Cert.ReferenceIdeal Cert.ReferenceIdeal.Gen Cert.ReferenceIdeal.Read

variable (m : (ℓ : Loc nD τ sig) → Buf (Elt Ideal) ℓ)

/-- The first result: the importance logits of the launch memory. -/
theorem logits_eq (c : Dev nD) :
    val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      = Cert.Spec.logit
          (Cert.Spec.proj (m ((c.tc : Thread nD τ).loc main_arg0)) (m ((c.tc : Thread nD τ).loc main_arg2)) (m ((c.tc : Thread nD τ).loc main_arg3)) (extractStridedSlice S256x256 ![0, 0] (m ((c.tc : Thread nD τ).loc main_arg6)) slices_S512x256_S256x256_0_0))
          (Cert.Spec.proj (m ((c.tc : Thread nD τ).loc main_arg1)) (m ((c.tc : Thread nD τ).loc main_arg4)) (m ((c.tc : Thread nD τ).loc main_arg5)) (extractStridedSlice S256x256 ![256, 0] (m ((c.tc : Thread nD τ).loc main_arg6)) slices_S512x256_S256x256_256_0))
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [ref_logit, enc_q, enc_k]
  unfold val_main_v10 val_main_v12
  rfl

/-- The second result: the variance of the launch memory. -/
theorem variance_eq (c : Dev nD) :
    val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg14)) (m ((c.tc : Thread nD τ).loc main_arg15)) (m ((c.tc : Thread nD τ).loc main_arg16)) (m ((c.tc : Thread nD τ).loc main_arg17))
      = Cert.Spec.variance
          (Cert.Spec.proj (m ((c.tc : Thread nD τ).loc main_arg0)) (m ((c.tc : Thread nD τ).loc main_arg2)) (m ((c.tc : Thread nD τ).loc main_arg3)) (extractStridedSlice S256x256 ![0, 0] (m ((c.tc : Thread nD τ).loc main_arg14)) slices_S512x256_S256x256_0_0))
          (Cert.Spec.proj (m ((c.tc : Thread nD τ).loc main_arg1)) (m ((c.tc : Thread nD τ).loc main_arg4)) (m ((c.tc : Thread nD τ).loc main_arg5)) (extractStridedSlice S256x256 ![256, 0] (m ((c.tc : Thread nD τ).loc main_arg14)) slices_S512x256_S256x256_256_0))
          (m ((c.tc : Thread nD τ).loc main_arg15)) (m ((c.tc : Thread nD τ).loc main_arg16)) (m ((c.tc : Thread nD τ).loc main_arg17)) := by
  rw [ref_var, enc_qv, enc_kv]
  unfold val_main_v38 val_main_v40
  rfl

end Cert.ReferenceIdeal.RefVal

end
-- ==== Proof.lean ====
/-
  The certificate of the learned importance sampler's pairwise network against its jnp reference, over the extended
  reals.

  The kernel runs in two regions. The first, one batch per grid point, encodes the queries and the keys
  (`relu (x · We + be)`) and projects each by the two halves of `W0` and of `Wv1`; the second, a 32 × 128 tile of
  (query, key) pairs per grid point, adds a query row and a key row of projections and a bias, applies a relu and two
  dense layers with relu, and contracts with `Wf` for the importance logit; for the variance it adds the variance
  projections and a bias, applies a relu, contracts with `Wv2` and takes the softplus. The reference computes the same
  composition on whole arrays: the projections use the same split of the weights, every contraction is a sum over the
  same index, and the softplus is the same expression, so no law beyond re-indexing the sums joins the two sides and the
  precondition is never opened.

  Both result arrays of each program are stated as ONE function of the argument arrays (`Spec.logit`, `Spec.variance`
  over `Spec.proj`): the kernel's by reading each region's blocks back into its arrays and composing the two regions
  through the run's buffer contents, the reference's by reading its run one operation at a time at an index. The
  three frames are the generated ones; the ideal pass rewrote nothing, so `preserves` is trivial.
-/
import proofs.«128512_j18940805775799_1_alg».proof.Defs
import proofs.«128512_j18940805775799_1_alg».proof.Proof.Gen.Kernel
import proofs.«128512_j18940805775799_1_alg».proof.Proof.Gen.Kernel.Skeleton
import proofs.«128512_j18940805775799_1_alg».proof.Proof.Gen.Kernel.Launch
import proofs.«128512_j18940805775799_1_alg».proof.Proof.Gen.Kernel.Points
import proofs.«128512_j18940805775799_1_alg».proof.Proof.Gen.Kernel.Frame
import proofs.«128512_j18940805775799_1_alg».proof.Proof.Gen.KernelIdeal
import proofs.«128512_j18940805775799_1_alg».proof.Proof.Gen.KernelIdeal.Skeleton
import proofs.«128512_j18940805775799_1_alg».proof.Proof.Gen.KernelIdeal.Launch
import proofs.«128512_j18940805775799_1_alg».proof.Proof.Gen.KernelIdeal.Points
import proofs.«128512_j18940805775799_1_alg».proof.Proof.Gen.KernelIdeal.Frame
import proofs.«128512_j18940805775799_1_alg».proof.Proof.Gen.ReferenceIdeal
import proofs.«128512_j18940805775799_1_alg».proof.Proof.Gen.Pre_finite_inputs
import proofs.«128512_j18940805775799_1_alg».proof.Proof.Gen.ReferenceIdeal.Run
import proofs.«128512_j18940805775799_1_alg».proof.Proof.Gen.ReferenceIdeal.Read
import proofs.«128512_j18940805775799_1_alg».proof.Proof.KRun
import proofs.«128512_j18940805775799_1_alg».proof.Proof.KVal
import proofs.«128512_j18940805775799_1_alg».proof.Proof.RefRes
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both idealized programs end with the importance logits and the variance
    at the same two functions of the arguments. -/
theorem algebraic : Cert.algebraic_KernelIdeal_ReferenceIdeal := by
  intro m ρ m' ρ' _ hagree
  refine ⟨fun c => Cert.Spec.logit
      (Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (extractStridedSlice Cert.KernelIdeal.S256x256 ![0, 0] (m ((c.tc : Thread Cert.KernelIdeal.nD Cert.KernelIdeal.τ).loc Cert.KernelIdeal.main_arg6)) Cert.KernelIdeal.Gen.slices_S512x256_S256x256_0_0))
      (Cert.Spec.proj (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (extractStridedSlice Cert.KernelIdeal.S256x256 ![256, 0] (m ((c.tc : Thread Cert.KernelIdeal.nD Cert.KernelIdeal.τ).loc Cert.KernelIdeal.main_arg6)) Cert.KernelIdeal.Gen.slices_S512x256_S256x256_256_0))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Spec.variance
      (Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (extractStridedSlice Cert.KernelIdeal.S256x256 ![0, 0] (m ((c.tc : Thread Cert.KernelIdeal.nD Cert.KernelIdeal.τ).loc Cert.KernelIdeal.main_arg14)) Cert.KernelIdeal.Gen.slices_S512x256_S256x256_0_0))
      (Cert.Spec.proj (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (extractStridedSlice Cert.KernelIdeal.S256x256 ![256, 0] (m ((c.tc : Thread Cert.KernelIdeal.nD Cert.KernelIdeal.τ).loc Cert.KernelIdeal.main_arg14)) Cert.KernelIdeal.Gen.slices_S512x256_S256x256_256_0))
      (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Gen.W3_logits m ρ c), (h c).2.1.trans (Cert.KernelIdeal.Gen.W3_variance m ρ c), (h c).2.2⟩)
      (Cert.KernelIdeal.Gen.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v37_eq, Cert.ReferenceIdeal.RefVal.logits_eq m' c,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    · rw [Cert.ReferenceIdeal.Read.val_main_v56_eq, Cert.ReferenceIdeal.RefVal.variance_eq m' c,
        (hagree c).1, (hagree c).2.1, (hagree c).2.2.1, (hagree c).2.2.2.1, (hagree c).2.2.2.2.1, (hagree c).2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
